-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x512x1024 : Shape := ⟨3, ![128, 512, 1024]⟩
abbrev S128x512x256 : Shape := ⟨3, ![128, 512, 256]⟩
abbrev S128x512 : Shape := ⟨2, ![128, 512]⟩
abbrev S256x256 : Shape := ⟨2, ![256, 256]⟩
abbrev S256 : Shape := ⟨1, ![256]⟩
abbrev S768x512 : Shape := ⟨2, ![768, 512]⟩
abbrev S768 : Shape := ⟨1, ![768]⟩
abbrev S768x256 : Shape := ⟨2, ![768, 256]⟩
abbrev S_ : Shape := ⟨0, ![]⟩

class Facts : Prop where
  bcast_S_S128x512x1024 : S_.BroadcastsInDim S128x512x1024 (![] : Fin 0 → Fin S128x512x1024.rank)
  reducesTo_S128x512x1024_S_d0_1_2 : S128x512x1024.ReducesTo [0, 1, 2] S_
  h_S_ : 0 < S_.numel
  bcast_S_S128x512x256 : S_.BroadcastsInDim S128x512x256 (![] : Fin 0 → Fin S128x512x256.rank)
  reducesTo_S128x512x256_S_d0_1_2 : S128x512x256.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S768x512 : S_.BroadcastsInDim S768x512 (![] : Fin 0 → Fin S768x512.rank)
  reducesTo_S768x512_S_d0_1 : S768x512.ReducesTo [0, 1] S_
  bcast_S_S768 : S_.BroadcastsInDim S768 (![] : Fin 0 → Fin S768.rank)
  reducesTo_S768_S_d0 : S768.ReducesTo [0] S_
  bcast_S_S768x256 : S_.BroadcastsInDim S768x256 (![] : Fin 0 → Fin S768x256.rank)
  reducesTo_S768x256_S_d0_1 : S768x256.ReducesTo [0, 1] S_

variable [Facts]

def fn_part3 {F : FTy → Type} [FloatOps F] (main_arg12 : FVec F S768 .f32) (main_v48 : IVec S_ 1) (main_v49 : FVec F S768x256 .f32) (main_v50 : FVec F S768x256 .f32) : IVec S_ 1 :=
  let main_v51 : IVec S768x256 1 := cmpf .olt main_v49 main_v50
  let main_c_19 : IVec S_ 1 := constantI S_ 1 1#1
  let main_v52 : IVec S_ 1 := (fun x v => Host.reduce IntOp.andi x v reducesTo_S768x256_S_d0_1 h_S_) main_v51 main_c_19
  let main_v53 : IVec S_ 1 := andi main_v48 main_v52
  let main_v54 : FVec F S768 .f32 := Host.absf main_arg12
  let main_cst_20 : FVec F S_ .f32 := constant S_ .f32 0x7F800000#32
  let main_v55 : FVec F S768 .f32 := broadcastInDim S768 ![] bcast_S_S768 main_cst_20
  let main_v56 : IVec S768 1 := cmpf .olt main_v54 main_v55
  let main_c_21 : IVec S_ 1 := constantI S_ 1 1#1
  let main_v57 : IVec S_ 1 := (fun x v => Host.reduce IntOp.andi x v reducesTo_S768_S_d0 h_S_) main_v56 main_c_21
  let main_v58 : IVec S_ 1 := andi main_v53 main_v57
  main_v58

def fn_part2 {F : FTy → Type} [FloatOps F] (main_arg8 : FVec F S256 .f32) (main_arg9 : FVec F S768x512 .f32) (main_arg10 : FVec F S768 .f32) (main_arg11 : FVec F S768x256 .f32) (main_arg12 : FVec F S768 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S768x512 .f32 := Host.absf main_arg9
  let main_cst_14 : FVec F S_ .f32 := constant S_ .f32 0x7F800000#32
  let main_v40 : FVec F S768x512 .f32 := broadcastInDim S768x512 ![] bcast_S_S768x512 main_cst_14
  let main_v41 : IVec S768x512 1 := cmpf .olt main_v39 main_v40
  let main_c_15 : IVec S_ 1 := constantI S_ 1 1#1
  let main_v42 : IVec S_ 1 := (fun x v => Host.reduce IntOp.andi x v reducesTo_S768x512_S_d0_1 h_S_) main_v41 main_c_15
  let main_v43 : IVec S_ 1 := andi main_v38 main_v42
  let main_v44 : FVec F S768 .f32 := Host.absf main_arg10
  let main_cst_16 : FVec F S_ .f32 := constant S_ .f32 0x7F800000#32
  let main_v45 : FVec F S768 .f32 := broadcastInDim S768 ![] bcast_S_S768 main_cst_16
  let main_v46 : IVec S768 1 := cmpf .olt main_v44 main_v45
  let main_c_17 : IVec S_ 1 := constantI S_ 1 1#1
  let main_v47 : IVec S_ 1 := (fun x v => Host.reduce IntOp.andi x v reducesTo_S768_S_d0 h_S_) main_v46 main_c_17
  let main_v48 : IVec S_ 1 := andi main_v43 main_v47
  let main_v49 : FVec F S768x256 .f32 := Host.absf main_arg11
  let main_cst_18 : FVec F S_ .f32 := constant S_ .f32 0x7F800000#32
  let main_v50 : FVec F S768x256 .f32 := broadcastInDim S768x256 ![] bcast_S_S768x256 main_cst_18
  fn_part3 (F := F) main_arg12 main_v48 main_v49 main_v50

def fn_part1 {F : FTy → Type} [FloatOps F] (main_arg5 : FVec F S256x256 .f32) (main_arg6 : FVec F S256 .f32) (main_arg7 : FVec F S256 .f32) (main_arg8 : FVec F S256 .f32) (main_arg9 : FVec F S768x512 .f32) (main_arg10 : FVec F S768 .f32) (main_arg11 : FVec F S768x256 .f32) (main_arg12 : FVec F S768 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S128x512x1024 .f32) (main_arg1 : FVec F S128x512x256 .f32) (main_arg2 : IVec S128x512 32) (main_arg3 : FVec F S256x256 .f32) (main_arg4 : FVec F S256 .f32) (main_arg5 : FVec F S256x256 .f32) (main_arg6 : FVec F S256 .f32) (main_arg7 : FVec F S256 .f32) (main_arg8 : FVec F S256 .f32) (main_arg9 : FVec F S768x512 .f32) (main_arg10 : FVec F S768 .f32) (main_arg11 : FVec F S768x256 .f32) (main_arg12 : FVec F S768 .f32) : IVec S_ 1 :=
  let main_v0 : FVec F S128x512x1024 .f32 := Host.absf main_arg0
  let main_cst : FVec F S_ .f32 := constant S_ .f32 0x7F800000#32
  let main_v1 : FVec F S128x512x1024 .f32 := broadcastInDim S128x512x1024 ![] bcast_S_S128x512x1024 main_cst
  let main_v2 : IVec S128x512x1024 1 := cmpf .olt main_v0 main_v1
  let main_c : IVec S_ 1 := constantI S_ 1 1#1
  let main_v3 : IVec S_ 1 := (fun x v => Host.reduce IntOp.andi x v reducesTo_S128x512x1024_S_d0_1_2 h_S_) main_v2 main_c
  let main_v4 : FVec F S128x512x256 .f32 := Host.absf main_arg1
  let main_cst_0 : FVec F S_ .f32 := constant S_ .f32 0x7F800000#32
  let main_v5 : FVec F S128x512x256 .f32 := broadcastInDim S128x512x256 ![] bcast_S_S128x512x256 main_cst_0
  let main_v6 : IVec S128x512x256 1 := cmpf .olt main_v4 main_v5
  let main_c_1 : IVec S_ 1 := constantI S_ 1 1#1
  let main_v7 : IVec S_ 1 := (fun x v => Host.reduce IntOp.andi x v reducesTo_S128x512x256_S_d0_1_2 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_arg11 main_arg12 main_v13 main_v16
-- ==== Kernel.lean ====
abbrev S128x512x1024 : Shape := ⟨3, ![128, 512, 1024]⟩
abbrev S128x512x256 : Shape := ⟨3, ![128, 512, 256]⟩
abbrev S128x512 : Shape := ⟨2, ![128, 512]⟩
abbrev S256x256 : Shape := ⟨2, ![256, 256]⟩
abbrev S256 : Shape := ⟨1, ![256]⟩
abbrev S768x512 : Shape := ⟨2, ![768, 512]⟩
abbrev S768 : Shape := ⟨1, ![768]⟩
abbrev S768x256 : Shape := ⟨2, ![768, 256]⟩
abbrev S512x768 : Shape := ⟨2, ![512, 768]⟩
abbrev S256x768 : Shape := ⟨2, ![256, 768]⟩
abbrev S1x256 : Shape := ⟨2, ![1, 256]⟩
abbrev S1x768 : Shape := ⟨2, ![1, 768]⟩
abbrev S1x512x1024 : Shape := ⟨3, ![1, 512, 1024]⟩
abbrev S1x512x256 : Shape := ⟨3, ![1, 512, 256]⟩
abbrev S512x256 : Shape := ⟨2, ![512, 256]⟩
abbrev S1x512x512 : Shape := ⟨3, ![1, 512, 512]⟩
abbrev S512x512 : Shape := ⟨2, ![512, 512]⟩

abbrev nBuf : Space → Nat
  | .hbm => 24
  | .vmem => 16
  | .smem => 0
  | _ => 0

abbrev bufTy : (tb : Table) → Fin (tcTables nBuf tb) → BufTy
  | .hbm, ⟨0, _⟩ => ⟨S128x512x1024, .f32⟩
  | .hbm, ⟨1, _⟩ => ⟨S128x512x256, .f32⟩
  | .hbm, ⟨2, _⟩ => ⟨S128x512, .i32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S768x512, .f32⟩
  | .hbm, ⟨10, _⟩ => ⟨S768, .f32⟩
  | .hbm, ⟨11, _⟩ => ⟨S768x256, .f32⟩
  | .hbm, ⟨12, _⟩ => ⟨S768, .f32⟩
  | .hbm, ⟨13, _⟩ => ⟨S256x256, .f32⟩
  | .hbm, ⟨14, _⟩ => ⟨S256x256, .f32⟩
  | .hbm, ⟨15, _⟩ => ⟨S512x768, .f32⟩
  | .hbm, ⟨16, _⟩ => ⟨S256x768, .f32⟩
  | .hbm, ⟨17, _⟩ => ⟨S1x256, .f32⟩
  | .hbm, ⟨18, _⟩ => ⟨S1x256, .f32⟩
  | .hbm, ⟨19, _⟩ => ⟨S1x256, .f32⟩
  | .hbm, ⟨20, _⟩ => ⟨S1x256, .f32⟩
  | .hbm, ⟨21, _⟩ => ⟨S1x768, .f32⟩
  | .hbm, ⟨22, _⟩ => ⟨S1x768, .f32⟩
  | .hbm, ⟨23, _⟩ => ⟨S128x512x256, .f32⟩
  | .local _ .vmem, ⟨0, _⟩ => ⟨S1x512x1024, .f32⟩
  | .local _ .vmem, ⟨1, _⟩ => ⟨S1x512x1024, .f32⟩
  | .local _ .vmem, ⟨2, _⟩ => ⟨S1x512x256, .f32⟩
  | .local _ .vmem, ⟨3, _⟩ => ⟨S1x512x256, .f32⟩
  | .local _ .vmem, ⟨4, _⟩ => ⟨S256x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S512x768, .f32⟩
  | .local _ .vmem, ⟨11, _⟩ => ⟨S1x768, .f32⟩
  | .local _ .vmem, ⟨12, _⟩ => ⟨S256x768, .f32⟩
  | .local _ .vmem, ⟨13, _⟩ => ⟨S1x768, .f32⟩
  | .local _ .vmem, ⟨14, _⟩ => ⟨S1x512x256, .f32⟩
  | .local _ .vmem, ⟨15, _⟩ => ⟨S1x512x256, .f32⟩
  | _, _ => ⟨S128x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  transposes_S256x256_S256x256_1_0 : S256x256.Transposes [1, 0] S256x256
  transposes_S768x512_S512x768_1_0 : S768x512.Transposes [1, 0] S512x768
  transposes_S768x256_S256x768_1_0 : S768x256.Transposes [1, 0] S256x768
  shapeCasts_S256_S1x256 : S256.ShapeCasts S1x256
  shapeCasts_S768_S1x768 : S768.ShapeCasts S1x768
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S1x512x1024_S1x512x512_0_0_0 : ∀ a, (![0, 0, 0] : Fin 3 → Nat) a + S1x512x512.size a ≤ S1x512x1024.size a
  h_S1x512x512 : 0 < S1x512x512.numel
  shapeCasts_S1x512x512_S512x512 : S1x512x512.ShapeCasts S512x512
  inb_S1x512x1024_S1x512x512_0_0_512 : ∀ a, (![0, 0, 512] : Fin 3 → Nat) a + S1x512x512.size a ≤ S1x512x1024.size a
  concatenates_S512x256_S512x256_S512x512_d1 : Shape.Concatenates [S512x256, S512x256] S512x512 1
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S512x768 : S1x768.Broadcasts S512x768
  slices_S512x768_o0_0_S512x256 : S512x768.Slices ![0, 0] S512x256
  slices_S512x768_o0_256_S512x256 : S512x768.Slices ![0, 256] S512x256
  slices_S512x768_o0_512_S512x256 : S512x768.Slices ![0, 512] S512x256
  shapeCasts_S512x256_S1x512x256 : S512x256.ShapeCasts S1x512x256
  dot_S512x256_S256x256_S512x256_1_0_0_1_n_n_wf : DotDims.WF S512x256 S256x256 S512x256 [1] [0] [0] [1] [] []
  dot_S512x512_S512x256_S512x256_1_0_0_1_n_n_wf : DotDims.WF S512x512 S512x256 S512x256 [1] [0] [0] [1] [] []
  dot_S512x512_S512x768_S512x768_1_0_0_1_n_n_wf : DotDims.WF S512x512 S512x768 S512x768 [1] [0] [0] [1] [] []
  dot_S512x256_S256x768_S512x768_1_0_0_1_n_n_wf : DotDims.WF S512x256 S256x768 S512x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S128x512x1024.size a
  hwx0_0 : ∀ i : grid0.Coords, EltTy.bits .f32 = 32 ∨ (Rect.block (s := S128x512x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x256.size a ≤ S128x512x256.size a
  hwx0_1 : ∀ i : grid0.Coords, EltTy.bits .f32 = 32 ∨ (Rect.block (s := S128x512x256) S1x512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x768.size a ≤ S512x768.size a
  hwx0_8 : ∀ i : grid0.Coords, EltTy.bits .f32 = 32 ∨ (Rect.block (s := S512x768) S512x768.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x768.size a ≤ S1x768.size a
  hwx0_9 : ∀ i : grid0.Coords, EltTy.bits .f32 = 32 ∨ (Rect.block (s := S1x768) S1x768.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x768.size a ≤ S256x768.size a
  hwx0_10 : ∀ i : grid0.Coords, EltTy.bits .f32 = 32 ∨ (Rect.block (s := S256x768) S256x768.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x768.size a ≤ S1x768.size a
  hwx0_11 : ∀ i : grid0.Coords, EltTy.bits .f32 = 32 ∨ (Rect.block (s := S1x768) S1x768.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x512x256.size a ≤ S128x512x256.size a
  hwx0_12 : ∀ i : grid0.Coords, EltTy.bits .f32 = 32 ∨ (Rect.block (s := S128x512x256) S1x512x256.size (cc0_transform_12 i) (hinb0_12 i)).WholeWords (EltTy.packing .f32)

variable [Facts₀]

def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x512_S512x768_S512x768_1_0_0_1_n_n : DotDims S512x512 S512x768 S512x768 where
  lhsContracting := [1]
  rhsContracting := [0]
  lhsNonContracting := [0]
  rhsNonContracting := [1]
  lhsBatch := []
  rhsBatch := []
  wf := dot_S512x512_S512x768_S512x768_1_0_0_1_n_n_wf
def dot_S512x256_S256x768_S512x768_1_0_0_1_n_n : DotDims S512x256 S256x768 S512x768 where
  lhsContracting := [1]
  rhsContracting := [0]
  lhsNonContracting := [0]
  rhsNonContracting := [1]
  lhsBatch := []
  rhsBatch := []
  wf := dot_S512x256_S256x768_S512x768_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2) S512x768.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8) S1x768.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v3) S256x768.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v9) S1x768.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v10) S1x512x256.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S128x512x1024 : Shape := ⟨3, ![128, 512, 1024]⟩
abbrev S128x512x256 : Shape := ⟨3, ![128, 512, 256]⟩
abbrev S128x512 : Shape := ⟨2, ![128, 512]⟩
abbrev S256x256 : Shape := ⟨2, ![256, 256]⟩
abbrev S256 : Shape := ⟨1, ![256]⟩
abbrev S768x512 : Shape := ⟨2, ![768, 512]⟩
abbrev S768 : Shape := ⟨1, ![768]⟩
abbrev S768x256 : Shape := ⟨2, ![768, 256]⟩
abbrev S1x1x256 : Shape := ⟨3, ![1, 1, 256]⟩
abbrev S128x512x512 : Shape := ⟨3, ![128, 512, 512]⟩
abbrev S128x512x768 : Shape := ⟨3, ![128, 512, 768]⟩
abbrev S1x1x768 : Shape := ⟨3, ![1, 1, 768]⟩
abbrev S_ : Shape := ⟨0, ![]⟩

abbrev nBuf : Space → Nat
  | .hbm => 70
  | .vmem => 0
  | .smem => 0
  | _ => 0

abbrev bufTy : (tb : Table) → Fin (tcTables nBuf tb) → BufTy
  | .hbm, ⟨0, _⟩ => ⟨S128x512x1024, .f32⟩
  | .hbm, ⟨1, _⟩ => ⟨S128x512x256, .f32⟩
  | .hbm, ⟨2, _⟩ => ⟨S128x512, .i32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S768x512, .f32⟩
  | .hbm, ⟨10, _⟩ => ⟨S768, .f32⟩
  | .hbm, ⟨11, _⟩ => ⟨S768x256, .f32⟩
  | .hbm, ⟨12, _⟩ => ⟨S768, .f32⟩
  | .hbm, ⟨13, _⟩ => ⟨S128x512x256, .f32⟩
  | .hbm, ⟨14, _⟩ => ⟨S1x1x256, .f32⟩
  | .hbm, ⟨15, _⟩ => ⟨S128x512x256, .f32⟩
  | .hbm, ⟨16, _⟩ => ⟨S128x512x256, .f32⟩
  | .hbm, ⟨17, _⟩ => ⟨S128x512x256, .f32⟩
  | .hbm, ⟨18, _⟩ => ⟨S1x1x256, .f32⟩
  | .hbm, ⟨19, _⟩ => ⟨S128x512x256, .f32⟩
  | .hbm, ⟨20, _⟩ => ⟨S128x512x256, .f32⟩
  | .hbm, ⟨21, _⟩ => ⟨S128x512x512, .f32⟩
  | .hbm, ⟨22, _⟩ => ⟨S128x512x256, .f32⟩
  | .hbm, ⟨23, _⟩ => ⟨S1x1x256, .f32⟩
  | .hbm, ⟨24, _⟩ => ⟨S128x512x256, .f32⟩
  | .hbm, ⟨25, _⟩ => ⟨S128x512x256, .f32⟩
  | .hbm, ⟨26, _⟩ => ⟨S128x512x512, .f32⟩
  | .hbm, ⟨27, _⟩ => ⟨S128x512x256, .f32⟩
  | .hbm, ⟨28, _⟩ => ⟨S1x1x256, .f32⟩
  | .hbm, ⟨29, _⟩ => ⟨S128x512x256, .f32⟩
  | .hbm, ⟨30, _⟩ => ⟨S128x512x256, .f32⟩
  | .hbm, ⟨31, _⟩ => ⟨S128x512x512, .f32⟩
  | .hbm, ⟨32, _⟩ => ⟨S128x512x768, .f32⟩
  | .hbm, ⟨33, _⟩ => ⟨S1x1x768, .f32⟩
  | .hbm, ⟨34, _⟩ => ⟨S128x512x768, .f32⟩
  | .hbm, ⟨35, _⟩ => ⟨S128x512x768, .f32⟩
  | .hbm, ⟨36, _⟩ => ⟨S128x512x768, .f32⟩
  | .hbm, ⟨37, _⟩ => ⟨S1x1x768, .f32⟩
  | .hbm, ⟨38, _⟩ => ⟨S128x512x768, .f32⟩
  | .hbm, ⟨39, _⟩ => ⟨S128x512x768, .f32⟩
  | .hbm, ⟨40, _⟩ => ⟨S128x512x256, .f32⟩
  | .hbm, ⟨41, _⟩ => ⟨S128x512x256, .f32⟩
  | .hbm, ⟨42, _⟩ => ⟨S128x512x256, .f32⟩
  | .hbm, ⟨43, _⟩ => ⟨S128x512x256, .f32⟩
  | .hbm, ⟨44, _⟩ => ⟨S128x512x256, .f32⟩
  | .hbm, ⟨45, _⟩ => ⟨S128x512x256, .f32⟩
  | .hbm, ⟨46, _⟩ => ⟨S128x512x256, .f32⟩
  | .hbm, ⟨47, _⟩ => ⟨S128x512x256, .f32⟩
  | .hbm, ⟨48, _⟩ => ⟨S128x512x256, .f32⟩
  | .hbm, ⟨49, _⟩ => ⟨S_, .f32⟩
  | .hbm, ⟨50, _⟩ => ⟨S128x512x256, .f32⟩
  | .hbm, ⟨51, _⟩ => ⟨S128x512x256, .f32⟩
  | .hbm, ⟨52, _⟩ => ⟨S_, .f32⟩
  | .hbm, ⟨53, _⟩ => ⟨S128x512x256, .f32⟩
  | .hbm, ⟨54, _⟩ => ⟨S128x512x256, .f32⟩
  | .hbm, ⟨55, _⟩ => ⟨S128x512x256, .f32⟩
  | .hbm, ⟨56, _⟩ => ⟨S128x512x256, .f32⟩
  | .hbm, ⟨57, _⟩ => ⟨S128x512x256, .f32⟩
  | .hbm, ⟨58, _⟩ => ⟨S_, .f32⟩
  | .hbm, ⟨59, _⟩ => ⟨S128x512x256, .f32⟩
  | .hbm, ⟨60, _⟩ => ⟨S128x512x256, .f32⟩
  | .hbm, ⟨61, _⟩ => ⟨S_, .f32⟩
  | .hbm, ⟨62, _⟩ => ⟨S128x512x256, .f32⟩
  | .hbm, ⟨63, _⟩ => ⟨S128x512x256, .f32⟩
  | .hbm, ⟨64, _⟩ => ⟨S128x512x256, .f32⟩
  | .hbm, ⟨65, _⟩ => ⟨S128x512x256, .f32⟩
  | .hbm, ⟨66, _⟩ => ⟨S128x512x256, .f32⟩
  | .hbm, ⟨67, _⟩ => ⟨S128x512x256, .f32⟩
  | .hbm, ⟨68, _⟩ => ⟨S128x512x256, .f32⟩
  | .hbm, ⟨69, _⟩ => ⟨S128x512x256, .f32⟩
  | _, _ => ⟨S128x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst : Ref sig .tc := ⟨.hbm, 49, rfl⟩
abbrev main_v36 : Ref sig .tc := ⟨.hbm, 50, rfl⟩
abbrev main_v37 : Ref sig .tc := ⟨.hbm, 51, rfl⟩
abbrev main_cst_0 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_1 : Ref sig .tc := ⟨.hbm, 58, rfl⟩
abbrev main_v43 : Ref sig .tc := ⟨.hbm, 59, rfl⟩
abbrev main_v44 : Ref sig .tc := ⟨.hbm, 60, rfl⟩
abbrev main_cst_2 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S128x512x256_0_1_2 : S1x1x256.BroadcastsInDim S128x512x256 (![0, 1, 2] : Fin 3 → Fin S128x512x256.rank)
  slices_S128x512x1024_S128x512x512_0_0_0 : S128x512x1024.Slices ![0, 0, 0] S128x512x512
  slices_S128x512x1024_S128x512x512_0_0_512 : S128x512x1024.Slices ![0, 0, 512] S128x512x512
  concatenates_S128x512x256_S128x512x256_S128x512x512_d2 : Shape.Concatenates [S128x512x256, S128x512x256] S128x512x512 2
  bcast_S768_S1x1x768_2 : S768.BroadcastsInDim S1x1x768 (![2] : Fin 1 → Fin S1x1x768.rank)
  bcast_S1x1x768_S128x512x768_0_1_2 : S1x1x768.BroadcastsInDim S128x512x768 (![0, 1, 2] : Fin 3 → Fin S128x512x768.rank)
  slices_S128x512x768_S128x512x256_0_0_0 : S128x512x768.Slices ![0, 0, 0] S128x512x256
  slices_S128x512x768_S128x512x256_0_0_256 : S128x512x768.Slices ![0, 0, 256] S128x512x256
  slices_S128x512x768_S128x512x256_0_0_512 : S128x512x768.Slices ![0, 0, 512] S128x512x256
  bcast_S_S128x512x256 : S_.BroadcastsInDim S128x512x256 (![] : Fin 0 → Fin S128x512x256.rank)
  dot_S128x512x256_S256x256_S128x512x256_2_1_01_0_n_n_wf : DotDims.WF S128x512x256 S256x256 S128x512x256 [2] [1] [0, 1] [0] [] []
  dot_S128x512x512_S128x512x256_S128x512x256_2_1_1_2_0_0_wf : DotDims.WF S128x512x512 S128x512x256 S128x512x256 [2] [1] [1] [2] [0] [0]
  dot_S128x512x512_S768x512_S128x512x768_2_1_01_0_n_n_wf : DotDims.WF S128x512x512 S768x512 S128x512x768 [2] [1] [0, 1] [0] [] []
  dot_S128x512x256_S768x256_S128x512x768_2_1_01_0_n_n_wf : DotDims.WF S128x512x256 S768x256 S128x512x768 [2] [1] [0, 1] [0] [] []

variable [Facts₀]

def dot_S128x512x256_S256x256_S128x512x256_2_1_01_0_n_n : DotDims S128x512x256 S256x256 S128x512x256 where
  lhsContracting := [2]
  rhsContracting := [1]
  lhsNonContracting := [0, 1]
  rhsNonContracting := [0]
  lhsBatch := []
  rhsBatch := []
  wf := dot_S128x512x256_S256x256_S128x512x256_2_1_01_0_n_n_wf
def dot_S128x512x512_S128x512x256_S128x512x256_2_1_1_2_0_0 : DotDims S128x512x512 S128x512x256 S128x512x256 where
  lhsContracting := [2]
  rhsContracting := [1]
  lhsNonContracting := [1]
  rhsNonContracting := [2]
  lhsBatch := [0]
  rhsBatch := [0]
  wf := dot_S128x512x512_S128x512x256_S128x512x256_2_1_1_2_0_0_wf
def dot_S128x512x512_S768x512_S128x512x768_2_1_01_0_n_n : DotDims S128x512x512 S768x512 S128x512x768 where
  lhsContracting := [2]
  rhsContracting := [1]
  lhsNonContracting := [0, 1]
  rhsNonContracting := [0]
  lhsBatch := []
  rhsBatch := []
  wf := dot_S128x512x512_S768x512_S128x512x768_2_1_01_0_n_n_wf
def dot_S128x512x256_S768x256_S128x512x768_2_1_01_0_n_n : DotDims S128x512x256 S768x256 S128x512x768 where
  lhsContracting := [2]
  rhsContracting := [1]
  lhsNonContracting := [0, 1]
  rhsNonContracting := [0]
  lhsBatch := []
  rhsBatch := []
  wf := dot_S128x512x256_S768x256_S128x512x768_2_1_01_0_n_n_wf

class Facts : Prop extends Facts₀ where

variable [Facts]
-- ==== Proof.Dots.lean ====
/-
  The kernel's four matrix products read at an entry.

  Each is a plain product of a [P, K] matrix with a [K, Q] matrix into a zero accumulator: at the extended reals its
  entry `(p, q)` is `∑ k, l (p, k) · r (k, q)`, the sum over the one contracted axis taken over `Fin K`. For each of the
  four shape records the operand indices of the product are computed axis by axis (the row of the left operand is the
  output's row, its column the contraction index; the row of the right operand is the contraction index, its column
  the output's column), and the sum over the record's contraction indices is carried to `Fin K`.
-/
import proofs.«120271_j64244120814024_1_alg».proof.Proof.Gen.KernelIdeal
import Idealize.ShloMosaic.Lib.ValueIdx
import Idealize.ShloMosaic.PureOps.Ideal.Laws

noncomputable section

namespace Cert.GnnCell.Dots

open Cert.KernelIdeal Cert.KernelIdeal.Gen Idealize.ShloMosaic Idealize.ShloMosaic.ValueIdx

variable {φ₁ φ₂ : FTy}

/-! ## a [512, 256] block against a [256, 256] weight -/

theorem lhs_feat256_0 (i : S512x256.Idx) (q : dot_S512x256_S256x256_S512x256_1_0_0_1_n_n.contr.Idx) :
    (dot_S512x256_S256x256_S512x256_1_0_0_1_n_n.lhsIdx i q 0).val = (i 0).val := by
  unfold DotDims.lhsIdx
  rw [dif_neg (show ¬(0 : Fin S512x256.rank) ∈ dot_S512x256_S256x256_S512x256_1_0_0_1_n_n.lhsBatch by decide), dif_pos (show (0 : Fin S512x256.rank) ∈ dot_S512x256_S256x256_S512x256_1_0_0_1_n_n.lhsNonContracting by decide)]
  rfl
theorem lhs_feat256_1 (i : S512x256.Idx) (q : dot_S512x256_S256x256_S512x256_1_0_0_1_n_n.contr.Idx) :
    (dot_S512x256_S256x256_S512x256_1_0_0_1_n_n.lhsIdx i q 1).val = (q ⟨0, by decide⟩).val :=
  dot_S512x256_S256x256_S512x256_1_0_0_1_n_n.lhsIdx_val_of_single rfl i q
theorem rhs_feat256_0 (i : S512x256.Idx) (q : dot_S512x256_S256x256_S512x256_1_0_0_1_n_n.contr.Idx) :
    (dot_S512x256_S256x256_S512x256_1_0_0_1_n_n.rhsIdx i q 0).val = (q ⟨0, by decide⟩).val :=
  dot_S512x256_S256x256_S512x256_1_0_0_1_n_n.rhsIdx_val_of_single rfl i q
theorem rhs_feat256_1 (i : S512x256.Idx) (q : dot_S512x256_S256x256_S512x256_1_0_0_1_n_n.contr.Idx) :
    (dot_S512x256_S256x256_S512x256_1_0_0_1_n_n.rhsIdx i q 1).val = (i 1).val := by
  unfold DotDims.rhsIdx
  rw [dif_neg (show ¬(1 : Fin S256x256.rank) ∈ dot_S512x256_S256x256_S512x256_1_0_0_1_n_n.rhsBatch by decide), dif_pos (show (1 : Fin S256x256.rank) ∈ dot_S512x256_S256x256_S512x256_1_0_0_1_n_n.rhsNonContracting by decide)]
  rfl

/-- Entry `(p, q)` of the product into the zero accumulator: the sum over `k : Fin 256` of `l (p, k) · r (k, q)`. -/
theorem matmul_feat256 (l : FVec Ideal S512x256 φ₁) (r : FVec Ideal S256x256 φ₂) (p : Fin 512) (q : Fin 256) :
    matmul dot_S512x256_S256x256_S512x256_1_0_0_1_n_n none l r (constant S512x256 .f32 0x00000000#32) (ix2 p q)
      = ∑ k : Fin 256, l (ix2 p k) * r (ix2 k q) := by
  simp only [matmul]
  rw [Ideal.matmul_constant_zero_apply, ← Equiv.sum_comp (contrEquiv1 dot_S512x256_S256x256_S512x256_1_0_0_1_n_n 256 rfl rfl).symm]
  refine Finset.sum_congr rfl fun k _ => ?_
  have hk := contrEquiv1_symm_val dot_S512x256_S256x256_S512x256_1_0_0_1_n_n 256 rfl rfl k
  have el : dot_S512x256_S256x256_S512x256_1_0_0_1_n_n.lhsIdx (ix2 p q) ((contrEquiv1 dot_S512x256_S256x256_S512x256_1_0_0_1_n_n 256 rfl rfl).symm k) = ix2 p k := funext fun a => Fin.ext (by
    match a with
    | ⟨0, _⟩ => exact lhs_feat256_0 _ _
    | ⟨1, _⟩ => exact (lhs_feat256_1 _ _).trans hk)
  have er : dot_S512x256_S256x256_S512x256_1_0_0_1_n_n.rhsIdx (ix2 p q) ((contrEquiv1 dot_S512x256_S256x256_S512x256_1_0_0_1_n_n 256 rfl rfl).symm k) = ix2 k q := funext fun a => Fin.ext (by
    match a with
    | ⟨0, _⟩ => exact (rhs_feat256_0 _ _).trans hk
    | ⟨1, _⟩ => exact rhs_feat256_1 _ _)
  rw [el, er]

/-! ## a [512, 512] half of the adjacency against [512, 256] edge features -/

theorem lhs_adj_0 (i : S512x256.Idx) (q : dot_S512x512_S512x256_S512x256_1_0_0_1_n_n.contr.Idx) :
    (dot_S512x512_S512x256_S512x256_1_0_0_1_n_n.lhsIdx i q 0).val = (i 0).val := by
  unfold DotDims.lhsIdx
  rw [dif_neg (show ¬(0 : Fin S512x512.rank) ∈ dot_S512x512_S512x256_S512x256_1_0_0_1_n_n.lhsBatch by decide), dif_pos (show (0 : Fin S512x512.rank) ∈ dot_S512x512_S512x256_S512x256_1_0_0_1_n_n.lhsNonContracting by decide)]
  rfl
theorem lhs_adj_1 (i : S512x256.Idx) (q : dot_S512x512_S512x256_S512x256_1_0_0_1_n_n.contr.Idx) :
    (dot_S512x512_S512x256_S512x256_1_0_0_1_n_n.lhsIdx i q 1).val = (q ⟨0, by decide⟩).val :=
  dot_S512x512_S512x256_S512x256_1_0_0_1_n_n.lhsIdx_val_of_single rfl i q
theorem rhs_adj_0 (i : S512x256.Idx) (q : dot_S512x512_S512x256_S512x256_1_0_0_1_n_n.contr.Idx) :
    (dot_S512x512_S512x256_S512x256_1_0_0_1_n_n.rhsIdx i q 0).val = (q ⟨0, by decide⟩).val :=
  dot_S512x512_S512x256_S512x256_1_0_0_1_n_n.rhsIdx_val_of_single rfl i q
theorem rhs_adj_1 (i : S512x256.Idx) (q : dot_S512x512_S512x256_S512x256_1_0_0_1_n_n.contr.Idx) :
    (dot_S512x512_S512x256_S512x256_1_0_0_1_n_n.rhsIdx i q 1).val = (i 1).val := by
  unfold DotDims.rhsIdx
  rw [dif_neg (show ¬(1 : Fin S512x256.rank) ∈ dot_S512x512_S512x256_S512x256_1_0_0_1_n_n.rhsBatch by decide), dif_pos (show (1 : Fin S512x256.rank) ∈ dot_S512x512_S512x256_S512x256_1_0_0_1_n_n.rhsNonContracting by decide)]
  rfl

/-- Entry `(p, q)` of the product into the zero accumulator: the sum over `k : Fin 512` of `l (p, k) · r (k, q)`. -/
theorem matmul_adj (l : FVec Ideal S512x512 φ₁) (r : FVec Ideal S512x256 φ₂) (p : Fin 512) (q : Fin 256) :
    matmul dot_S512x512_S512x256_S512x256_1_0_0_1_n_n none l r (constant S512x256 .f32 0x00000000#32) (ix2 p q)
      = ∑ k : Fin 512, l (ix2 p k) * r (ix2 k q) := by
  simp only [matmul]
  rw [Ideal.matmul_constant_zero_apply, ← Equiv.sum_comp (contrEquiv1 dot_S512x512_S512x256_S512x256_1_0_0_1_n_n 512 rfl rfl).symm]
  refine Finset.sum_congr rfl fun k _ => ?_
  have hk := contrEquiv1_symm_val dot_S512x512_S512x256_S512x256_1_0_0_1_n_n 512 rfl rfl k
  have el : dot_S512x512_S512x256_S512x256_1_0_0_1_n_n.lhsIdx (ix2 p q) ((contrEquiv1 dot_S512x512_S512x256_S512x256_1_0_0_1_n_n 512 rfl rfl).symm k) = ix2 p k := funext fun a => Fin.ext (by
    match a with
    | ⟨0, _⟩ => exact lhs_adj_0 _ _
    | ⟨1, _⟩ => exact (lhs_adj_1 _ _).trans hk)
  have er : dot_S512x512_S512x256_S512x256_1_0_0_1_n_n.rhsIdx (ix2 p q) ((contrEquiv1 dot_S512x512_S512x256_S512x256_1_0_0_1_n_n 512 rfl rfl).symm k) = ix2 k q := funext fun a => Fin.ext (by
    match a with
    | ⟨0, _⟩ => exact (rhs_adj_0 _ _).trans hk
    | ⟨1, _⟩ => exact rhs_adj_1 _ _)
  rw [el, er]

/-! ## the [512, 512] joined messages against the [512, 768] gate weight -/

theorem lhs_gate512_0 (i : S512x768.Idx) (q : dot_S512x512_S512x768_S512x768_1_0_0_1_n_n.contr.Idx) :
    (dot_S512x512_S512x768_S512x768_1_0_0_1_n_n.lhsIdx i q 0).val = (i 0).val := by
  unfold DotDims.lhsIdx
  rw [dif_neg (show ¬(0 : Fin S512x512.rank) ∈ dot_S512x512_S512x768_S512x768_1_0_0_1_n_n.lhsBatch by decide), dif_pos (show (0 : Fin S512x512.rank) ∈ dot_S512x512_S512x768_S512x768_1_0_0_1_n_n.lhsNonContracting by decide)]
  rfl
theorem lhs_gate512_1 (i : S512x768.Idx) (q : dot_S512x512_S512x768_S512x768_1_0_0_1_n_n.contr.Idx) :
    (dot_S512x512_S512x768_S512x768_1_0_0_1_n_n.lhsIdx i q 1).val = (q ⟨0, by decide⟩).val :=
  dot_S512x512_S512x768_S512x768_1_0_0_1_n_n.lhsIdx_val_of_single rfl i q
theorem rhs_gate512_0 (i : S512x768.Idx) (q : dot_S512x512_S512x768_S512x768_1_0_0_1_n_n.contr.Idx) :
    (dot_S512x512_S512x768_S512x768_1_0_0_1_n_n.rhsIdx i q 0).val = (q ⟨0, by decide⟩).val :=
  dot_S512x512_S512x768_S512x768_1_0_0_1_n_n.rhsIdx_val_of_single rfl i q
theorem rhs_gate512_1 (i : S512x768.Idx) (q : dot_S512x512_S512x768_S512x768_1_0_0_1_n_n.contr.Idx) :
    (dot_S512x512_S512x768_S512x768_1_0_0_1_n_n.rhsIdx i q 1).val = (i 1).val := by
  unfold DotDims.rhsIdx
  rw [dif_neg (show ¬(1 : Fin S512x768.rank) ∈ dot_S512x512_S512x768_S512x768_1_0_0_1_n_n.rhsBatch by decide), dif_pos (show (1 : Fin S512x768.rank) ∈ dot_S512x512_S512x768_S512x768_1_0_0_1_n_n.rhsNonContracting by decide)]
  rfl

/-- Entry `(p, q)` of the product into the zero accumulator: the sum over `k : Fin 512` of `l (p, k) · r (k, q)`. -/
theorem matmul_gate512 (l : FVec Ideal S512x512 φ₁) (r : FVec Ideal S512x768 φ₂) (p : Fin 512) (q : Fin 768) :
    matmul dot_S512x512_S512x768_S512x768_1_0_0_1_n_n none l r (constant S512x768 .f32 0x00000000#32) (ix2 p q)
      = ∑ k : Fin 512, l (ix2 p k) * r (ix2 k q) := by
  simp only [matmul]
  rw [Ideal.matmul_constant_zero_apply, ← Equiv.sum_comp (contrEquiv1 dot_S512x512_S512x768_S512x768_1_0_0_1_n_n 512 rfl rfl).symm]
  refine Finset.sum_congr rfl fun k _ => ?_
  have hk := contrEquiv1_symm_val dot_S512x512_S512x768_S512x768_1_0_0_1_n_n 512 rfl rfl k
  have el : dot_S512x512_S512x768_S512x768_1_0_0_1_n_n.lhsIdx (ix2 p q) ((contrEquiv1 dot_S512x512_S512x768_S512x768_1_0_0_1_n_n 512 rfl rfl).symm k) = ix2 p k := funext fun a => Fin.ext (by
    match a with
    | ⟨0, _⟩ => exact lhs_gate512_0 _ _
    | ⟨1, _⟩ => exact (lhs_gate512_1 _ _).trans hk)
  have er : dot_S512x512_S512x768_S512x768_1_0_0_1_n_n.rhsIdx (ix2 p q) ((contrEquiv1 dot_S512x512_S512x768_S512x768_1_0_0_1_n_n 512 rfl rfl).symm k) = ix2 k q := funext fun a => Fin.ext (by
    match a with
    | ⟨0, _⟩ => exact (rhs_gate512_0 _ _).trans hk
    | ⟨1, _⟩ => exact rhs_gate512_1 _ _)
  rw [el, er]

/-! ## the [512, 256] features against the [256, 768] gate weight -/

theorem lhs_gate256_0 (i : S512x768.Idx) (q : dot_S512x256_S256x768_S512x768_1_0_0_1_n_n.contr.Idx) :
    (dot_S512x256_S256x768_S512x768_1_0_0_1_n_n.lhsIdx i q 0).val = (i 0).val := by
  unfold DotDims.lhsIdx
  rw [dif_neg (show ¬(0 : Fin S512x256.rank) ∈ dot_S512x256_S256x768_S512x768_1_0_0_1_n_n.lhsBatch by decide), dif_pos (show (0 : Fin S512x256.rank) ∈ dot_S512x256_S256x768_S512x768_1_0_0_1_n_n.lhsNonContracting by decide)]
  rfl
theorem lhs_gate256_1 (i : S512x768.Idx) (q : dot_S512x256_S256x768_S512x768_1_0_0_1_n_n.contr.Idx) :
    (dot_S512x256_S256x768_S512x768_1_0_0_1_n_n.lhsIdx i q 1).val = (q ⟨0, by decide⟩).val :=
  dot_S512x256_S256x768_S512x768_1_0_0_1_n_n.lhsIdx_val_of_single rfl i q
theorem rhs_gate256_0 (i : S512x768.Idx) (q : dot_S512x256_S256x768_S512x768_1_0_0_1_n_n.contr.Idx) :
    (dot_S512x256_S256x768_S512x768_1_0_0_1_n_n.rhsIdx i q 0).val = (q ⟨0, by decide⟩).val :=
  dot_S512x256_S256x768_S512x768_1_0_0_1_n_n.rhsIdx_val_of_single rfl i q
theorem rhs_gate256_1 (i : S512x768.Idx) (q : dot_S512x256_S256x768_S512x768_1_0_0_1_n_n.contr.Idx) :
    (dot_S512x256_S256x768_S512x768_1_0_0_1_n_n.rhsIdx i q 1).val = (i 1).val := by
  unfold DotDims.rhsIdx
  rw [dif_neg (show ¬(1 : Fin S256x768.rank) ∈ dot_S512x256_S256x768_S512x768_1_0_0_1_n_n.rhsBatch by decide), dif_pos (show (1 : Fin S256x768.rank) ∈ dot_S512x256_S256x768_S512x768_1_0_0_1_n_n.rhsNonContracting by decide)]
  rfl

/-- Entry `(p, q)` of the product into the zero accumulator: the sum over `k : Fin 256` of `l (p, k) · r (k, q)`. -/
theorem matmul_gate256 (l : FVec Ideal S512x256 φ₁) (r : FVec Ideal S256x768 φ₂) (p : Fin 512) (q : Fin 768) :
    matmul dot_S512x256_S256x768_S512x768_1_0_0_1_n_n none l r (constant S512x768 .f32 0x00000000#32) (ix2 p q)
      = ∑ k : Fin 256, l (ix2 p k) * r (ix2 k q) := by
  simp only [matmul]
  rw [Ideal.matmul_constant_zero_apply, ← Equiv.sum_comp (contrEquiv1 dot_S512x256_S256x768_S512x768_1_0_0_1_n_n 256 rfl rfl).symm]
  refine Finset.sum_congr rfl fun k _ => ?_
  have hk := contrEquiv1_symm_val dot_S512x256_S256x768_S512x768_1_0_0_1_n_n 256 rfl rfl k
  have el : dot_S512x256_S256x768_S512x768_1_0_0_1_n_n.lhsIdx (ix2 p q) ((contrEquiv1 dot_S512x256_S256x768_S512x768_1_0_0_1_n_n 256 rfl rfl).symm k) = ix2 p k := funext fun a => Fin.ext (by
    match a with
    | ⟨0, _⟩ => exact lhs_gate256_0 _ _
    | ⟨1, _⟩ => exact (lhs_gate256_1 _ _).trans hk)
  have er : dot_S512x256_S256x768_S512x768_1_0_0_1_n_n.rhsIdx (ix2 p q) ((contrEquiv1 dot_S512x256_S256x768_S512x768_1_0_0_1_n_n 256 rfl rfl).symm k) = ix2 k q := funext fun a => Fin.ext (by
    match a with
    | ⟨0, _⟩ => exact (rhs_gate256_0 _ _).trans hk
    | ⟨1, _⟩ => exact rhs_gate256_1 _ _)
  rw [el, er]

end Cert.GnnCell.Dots

end
-- ==== Proof.Spec.lean ====
/-
  One step of a gated graph cell, for ONE batch element, written over coordinates.

  A batch element has 512 nodes with 256 features each. The step is
    edge features   e_in = hid · W_inᵀ + b_in,   e_out = hid · W_outᵀ + b_out          (512 × 256 each)
    messages        m_in = A_in · e_in + b_iah,  m_out = A_out · e_out + b_oah         (A_in, A_out the two halves of the
                                                                                        512 × 1024 adjacency row block)
    gate inputs     gi = [m_in | m_out] · w_ihᵀ + b_ih,   gh = hid · w_hhᵀ + b_hh      (512 × 768 each)
    reset  r = σ(gi₀ + gh₀),  update  z = σ(gi₁ + gh₁),  candidate  n = tanh(gi₂ + r · gh₂)   (the three thirds of the 768 axis)
    result          hid + z · (n − hid)
  over the extended reals, every sum a plain finite sum in the order "left factor times right factor". Nothing here
  is rearranged: both programs compute exactly these sums, so no law of the extended reals beyond reading each
  operation at an index is needed, and no finiteness.

  The operands are ACCESSORS (functions of coordinates), so that the same term describes a block of a staged array and a
  batch slice of a whole array.
-/
import Idealize.ShloMosaic.PureOps.Ideal
import Idealize.ShloMosaic.Lib.ValueIdx

noncomputable section

namespace Cert.GnnCell

open Idealize.ShloMosaic Idealize.ShloMosaic.ValueIdx

/-- Edge features: row `j` of `hid` against row `g` of the weight (the weight is applied transposed), plus the bias. -/
def edge (hid : Fin 512 → Fin 256 → EReal) (W : Fin 256 → Fin 256 → EReal) (b : Fin 256 → EReal)
    (j : Fin 512) (g : Fin 256) : EReal :=
  (∑ k : Fin 256, hid j k * W g k) + b g

/-- Messages: row `i` of one half of the adjacency against column `h` of the edge features, plus the bias. -/
def msg (adj : Fin 512 → Fin 512 → EReal) (e : Fin 512 → Fin 256 → EReal) (b : Fin 256 → EReal)
    (i : Fin 512) (h : Fin 256) : EReal :=
  (∑ j : Fin 512, adj i j * e j h) + b h

/-- Two 256-wide feature blocks side by side: columns below 256 from the first, the rest from the second. -/
def cat (x y : Fin 512 → Fin 256 → EReal) (i : Fin 512) (q : Fin 512) : EReal :=
  if h : q.val < 256 then x i ⟨q.val, h⟩ else y i ⟨q.val - 256, by omega⟩

/-- A gate projection: row `i` of the input against row `g` of the weight (applied transposed), plus the bias. -/
def lin {K : Nat} (x : Fin 512 → Fin K → EReal) (W : Fin 768 → Fin K → EReal) (b : Fin 768 → EReal)
    (i : Fin 512) (g : Fin 768) : EReal :=
  (∑ k : Fin K, x i k * W g k) + b g

/-- Column `c` of the first, second and third third of the 768-wide gate axis. -/
def g0 (c : Fin 256) : Fin 768 := ⟨c.val, by omega⟩
def g1 (c : Fin 256) : Fin 768 := ⟨256 + c.val, by omega⟩
def g2 (c : Fin 256) : Fin 768 := ⟨512 + c.val, by omega⟩

/-- The gated update from the two gate projections: reset and update gates by the logistic function, the candidate by
    `tanh`, the result the old features moved towards the candidate by the update gate. -/
def gate (gi gh : Fin 512 → Fin 768 → EReal) (hid : Fin 512 → Fin 256 → EReal) (i : Fin 512) (c : Fin 256) : EReal :=
  hid i c + Ideal.logistic (gi i (g1 c) + gh i (g1 c))
    * (Ideal.tanh (gi i (g2 c) + Ideal.logistic (gi i (g0 c) + gh i (g0 c)) * gh i (g2 c)) - hid i c)

/-- The whole step for one batch element. -/
def cell (aIn aOut : Fin 512 → Fin 512 → EReal) (hid : Fin 512 → Fin 256 → EReal)
    (Wi : Fin 256 → Fin 256 → EReal) (bi : Fin 256 → EReal) (Wo : Fin 256 → Fin 256 → EReal) (bo : Fin 256 → EReal)
    (bia boa : Fin 256 → EReal)
    (wih : Fin 768 → Fin 512 → EReal) (bih : Fin 768 → EReal) (whh : Fin 768 → Fin 256 → EReal) (bhh : Fin 768 → EReal) :
    Fin 512 → Fin 256 → EReal :=
  gate (lin (cat (msg aIn (edge hid Wi bi) bia) (msg aOut (edge hid Wo bo) boa)) wih bih) (lin hid whh bhh) hid

/-- Column `j` of the first and of the second half of the 1024-wide adjacency axis. -/
def lo (j : Fin 512) : Fin 1024 := ⟨j.val, by omega⟩
def hi (j : Fin 512) : Fin 1024 := ⟨512 + j.val, by omega⟩

/-- The step over whole arrays: entry `(n, i, c)` of the result is the cell of batch element `n` at `(i, c)`. The
    arguments come in the order of the programs' parameters (the unused integer mask left out). -/
def G (A : FVec Ideal ⟨3, ![128, 512, 1024]⟩ .f32) (H : FVec Ideal ⟨3, ![128, 512, 256]⟩ .f32)
    (Wi : FVec Ideal ⟨2, ![256, 256]⟩ .f32) (bi : FVec Ideal ⟨1, ![256]⟩ .f32)
    (Wo : FVec Ideal ⟨2, ![256, 256]⟩ .f32) (bo : FVec Ideal ⟨1, ![256]⟩ .f32)
    (bia boa : FVec Ideal ⟨1, ![256]⟩ .f32)
    (wih : FVec Ideal ⟨2, ![768, 512]⟩ .f32) (bih : FVec Ideal ⟨1, ![768]⟩ .f32)
    (whh : FVec Ideal ⟨2, ![768, 256]⟩ .f32) (bhh : FVec Ideal ⟨1, ![768]⟩ .f32) :
    FVec Ideal ⟨3, ![128, 512, 256]⟩ .f32 :=
  fun idx => cell (fun i j => A (ix3 (idx 0) i (lo j))) (fun i j => A (ix3 (idx 0) i (hi j)))
    (fun i k => H (ix3 (idx 0) i k))
    (fun g k => Wi (ix2 g k)) (fun g => bi (ix1 g)) (fun g k => Wo (ix2 g k)) (fun g => bo (ix1 g))
    (fun h => bia (ix1 h)) (fun h => boa (ix1 h))
    (fun g q => wih (ix2 g q)) (fun g => bih (ix1 g)) (fun g k => whh (ix2 g k)) (fun g => bhh (ix1 g))
    (idx 1) (idx 2)

/-- The f32 pattern of one is the extended real `1`. -/
theorem ofBits_one_f32 : Ideal.ofBits .f32 0x3F800000#32 = 1 := by
  simp [Ideal.ofBits, Ideal.ieee, -EReal.coe_mul]; norm_num

end Cert.GnnCell

end
-- ==== Proof.KernelCell.lean ====
/-
  The kernel body's stored value, read entry by entry, is the graph cell of `Spec.lean` on the loaded blocks.

  The body loads one batch element's blocks: the [1, 512, 256] features, the two [1, 512, 512] halves of the
  adjacency, the weights already transposed ([256, 256], [512, 768], [256, 768]: entry `(k, g)` is the weight's
  `(g, k)`) and the biases as one row ([1, 256], [1, 768]). Narrowing a value to sixteen bits is the identity on
  the extended reals, a leading unit axis is dropped or added without moving an entry, a bias row is spread over
  the 512 rows, each matrix product into the zero accumulator is the sum over its contracted axis, the joined block
  picks its operand by the column, and the three thirds of a gate projection are column slices at 0, 256 and 512.
  So entry `(0, i, c)` of the stored value is `cell … i c` with the accessors below.
-/
import proofs.«120271_j64244120814024_1_alg».proof.Proof.Gen.KernelIdeal.Skeleton
import proofs.«120271_j64244120814024_1_alg».proof.Proof.Dots
import proofs.«120271_j64244120814024_1_alg».proof.Proof.Spec
import Idealize.ShloMosaic.Lib.ValueLayout

noncomputable section

namespace Cert.GnnCell.Kernel

open Cert.KernelIdeal Cert.KernelIdeal.Gen Idealize.ShloMosaic Idealize.ShloMosaic.ValueIdx Cert.GnnCell Cert.GnnCell.Dots

/-! ## Small readings -/

/-- A bias row of 256 spread over 512 rows. -/
theorem biasRow256 (b : Vec Ideal S1x256 .f32) (p : Fin 512) (c : Fin 256) :
    broadcastTo S512x256 (shapeCast S1x256 b shapeCasts_S1x256_S1x256 : FVec Ideal S1x256 .f32) broadcasts_S1x256_S512x256 (ix2 p c) = b (ix2 0 c) := by
  rw [shapeCast_self]
  exact broadcastTo_1b_ab_apply _ _ p c

/-- A bias row of 768 spread over 512 rows. -/
theorem biasRow768 (b : Vec Ideal S1x768 .f32) (p : Fin 512) (c : Fin 768) :
    broadcastTo S512x768 (shapeCast S1x768 b shapeCasts_S1x768_S1x768 : FVec Ideal S1x768 .f32) broadcasts_S1x768_S512x768 (ix2 p c) = b (ix2 0 c) := by
  rw [shapeCast_self]
  exact broadcastTo_1b_ab_apply _ _ p c

/-- The features with the unit batch axis dropped. -/
theorem feat_apply (v0 : Vec Ideal S1x512x256 .f32) (i : Fin 512) (k : Fin 256) :
    k0_pay2 v0 (ix2 i k) = v0 (ix3 0 i k) := by
  unfold k0_pay2
  exact shapeCast_1ab_ab_apply _ _ i k

/-- … and narrowed to sixteen bits: the same extended real. -/
theorem feat16_apply (v0 : Vec Ideal S1x512x256 .f32) (i : Fin 512) (k : Fin 256) :
    k0_pay3 v0 (ix2 i k) = v0 (ix3 0 i k) := by
  unfold k0_pay3
  rw [truncf_apply]
  exact feat_apply v0 i k

/-- A half of the adjacency with the unit batch axis dropped. -/
theorem adj_apply (a : Vec Ideal S1x512x512 .f32) (i j : Fin 512) :
    (shapeCast S512x512 a shapeCasts_S1x512x512_S512x512 : FVec Ideal S512x512 .f32) (ix2 i j) = a (ix3 0 i j) :=
  shapeCast_1ab_ab_apply _ _ i j

/-! ## The stages -/

/-- Edge features: the features against a transposed [256, 256] weight, plus the bias row. -/
theorem edge_eq (v0 : Vec Ideal S1x512x256 .f32) (w : Vec Ideal S256x256 .f32) (b : Vec Ideal S1x256 .f32)
    (j : Fin 512) (g : Fin 256) :
    addf (matmul dot_S512x256_S256x256_S512x256_1_0_0_1_n_n none (k0_pay3 v0)
        (truncf .bf16 (shapeCast S256x256 w shapeCasts_S256x256_S256x256) bitsLt_bf16_f32) (constant S512x256 .f32 0x00000000#32))
      (broadcastTo S512x256 (shapeCast S1x256 b shapeCasts_S1x256_S1x256) broadcasts_S1x256_S512x256) (ix2 j g)
    = edge (fun i k => v0 (ix3 0 i k)) (fun g k => w (ix2 k g)) (fun g => b (ix2 0 g)) j g := by
  rw [addf_apply, matmul_feat256, biasRow256]
  simp only [edge, feat16_apply, truncf_apply, shapeCast_self]

/-- Messages: a half of the adjacency against the edge features, plus the bias row. -/
theorem msg_eq (v0 : Vec Ideal S1x512x256 .f32) (w : Vec Ideal S256x256 .f32) (b : Vec Ideal S1x256 .f32)
    (a : Vec Ideal S1x512x512 .f32) (b' : Vec Ideal S1x256 .f32) (i : Fin 512) (h : Fin 256) :
    addf (matmul dot_S512x512_S512x256_S512x256_1_0_0_1_n_n none
        (truncf .bf16 (shapeCast S512x512 a shapeCasts_S1x512x512_S512x512) bitsLt_bf16_f32)
        (truncf .bf16
          (addf (matmul dot_S512x256_S256x256_S512x256_1_0_0_1_n_n none (k0_pay3 v0)
              (truncf .bf16 (shapeCast S256x256 w shapeCasts_S256x256_S256x256) bitsLt_bf16_f32) (constant S512x256 .f32 0x00000000#32))
            (broadcastTo S512x256 (shapeCast S1x256 b shapeCasts_S1x256_S1x256) broadcasts_S1x256_S512x256))
          bitsLt_bf16_f32)
        (constant S512x256 .f32 0x00000000#32))
      (broadcastTo S512x256 (shapeCast S1x256 b' shapeCasts_S1x256_S1x256) broadcasts_S1x256_S512x256) (ix2 i h)
    = msg (fun i j => a (ix3 0 i j)) (edge (fun i k => v0 (ix3 0 i k)) (fun g k => w (ix2 k g)) (fun g => b (ix2 0 g)))
        (fun h => b' (ix2 0 h)) i h := by
  rw [addf_apply, matmul_adj, biasRow256]
  simp only [msg, truncf_apply, adj_apply, edge_eq]

/-- The incoming messages the first part of the body hands on. -/
theorem msgIn_eq (v0 : Vec Ideal S1x512x256 .f32) (v3 : Vec Ideal S256x256 .f32) (v10 : Vec Ideal S1x256 .f32)
    (v19 : Vec Ideal S1x512x512 .f32) (v27 : Vec Ideal S1x256 .f32) (i : Fin 512) (h : Fin 256) :
    k0_pay4 v0 v3 v10 v19 v27 (ix2 i h)
      = msg (fun i j => v19 (ix3 0 i j)) (edge (fun i k => v0 (ix3 0 i k)) (fun g k => v3 (ix2 k g)) (fun g => v10 (ix2 0 g)))
          (fun h => v27 (ix2 0 h)) i h := by
  unfold k0_pay4
  exact msg_eq v0 v3 v10 v19 v27 i h

/-- The outgoing messages, still without their bias (the body adds it in its second part). -/
theorem msgOut_eq (v0 : Vec Ideal S1x512x256 .f32) (v6 : Vec Ideal S256x256 .f32) (v15 : Vec Ideal S1x256 .f32)
    (v22 : Vec Ideal S1x512x512 .f32) (v33 : Vec Ideal S1x256 .f32) (i : Fin 512) (h : Fin 256) :
    k0_pay5 v0 v6 v15 v22 (ix2 i h)
        + broadcastTo S512x256 (shapeCast S1x256 v33 shapeCasts_S1x256_S1x256 : FVec Ideal S1x256 .f32) broadcasts_S1x256_S512x256 (ix2 i h)
      = msg (fun i j => v22 (ix3 0 i j)) (edge (fun i k => v0 (ix3 0 i k)) (fun g k => v6 (ix2 k g)) (fun g => v15 (ix2 0 g)))
          (fun h => v33 (ix2 0 h)) i h := by
  unfold k0_pay5
  exact msg_eq v0 v6 v15 v22 v33 i h

/-- Two [512, 256] blocks joined along the columns, read at a column. -/
theorem cat_eq (x y : FVec Ideal S512x256 .f32) (i : Fin 512) (q : Fin 512) :
    concatenate S512x512 1 [⟨S512x256, x⟩, ⟨S512x256, y⟩] concatenates_S512x256_S512x256_S512x512_d1 (ix2 i q)
      = cat (fun i c => x (ix2 i c)) (fun i c => y (ix2 i c)) i q := by
  unfold cat
  by_cases hq : q.val < 256
  · rw [dif_pos hq]
    refine concatenate_pair_apply_left (t := S512x512) (s₁ := S512x256) (s₂ := S512x256) (1 : Fin 2) _ _
      concatenates_S512x256_S512x256_S512x512_d1 (ix2 i q) rfl (ix2 i ⟨q.val, hq⟩) ?_
    intro b
    match b with
    | ⟨0, _⟩ => rfl
    | ⟨1, _⟩ => rfl
  · rw [dif_neg hq]
    refine concatenate_pair_apply_right (t := S512x512) (s₁ := S512x256) (s₂ := S512x256) (1 : Fin 2) _ _
      concatenates_S512x256_S512x256_S512x512_d1 (ix2 i q) rfl rfl (ix2 i ⟨q.val - 256, by omega⟩) ?_ ?_
    · intro b hb
      match b, hb with
      | ⟨0, _⟩, _ => rfl
      | ⟨1, _⟩, hb => exact absurd rfl hb
    · show (q.val - 256) + 256 = q.val
      omega

/-- The three thirds of a [512, 768] gate projection. -/
theorem third0 (x : FVec Ideal S512x768 .f32) (i : Fin 512) (c : Fin 256) :
    extractStridedSlice S512x256 ![0, 0] x slices_S512x768_o0_0_S512x256 (ix2 i c) = x (ix2 i (g0 c)) :=
  slice2_axis1_apply 0 x _ i c (g0 c) (Nat.zero_add _).symm
theorem third1 (x : FVec Ideal S512x768 .f32) (i : Fin 512) (c : Fin 256) :
    extractStridedSlice S512x256 ![0, 256] x slices_S512x768_o0_256_S512x256 (ix2 i c) = x (ix2 i (g1 c)) :=
  slice2_axis1_apply 256 x _ i c (g1 c) rfl
theorem third2 (x : FVec Ideal S512x768 .f32) (i : Fin 512) (c : Fin 256) :
    extractStridedSlice S512x256 ![0, 512] x slices_S512x768_o0_512_S512x256 (ix2 i c) = x (ix2 i (g2 c)) :=
  slice2_axis1_apply 512 x _ i c (g2 c) rfl

/-- The gate projection of the joined messages: against the transposed [512, 768] weight, plus the bias row. -/
theorem gi_eq (x y : FVec Ideal S512x256 .f32) (w : Vec Ideal S512x768 .f32) (b : Vec Ideal S1x768 .f32)
    (i : Fin 512) (g : Fin 768) :
    matmul dot_S512x512_S512x768_S512x768_1_0_0_1_n_n none
        (truncf .bf16 (concatenate S512x512 1 [⟨S512x256, x⟩, ⟨S512x256, y⟩] concatenates_S512x256_S512x256_S512x512_d1) bitsLt_bf16_f32)
        (truncf .bf16 (shapeCast S512x768 w shapeCasts_S512x768_S512x768) bitsLt_bf16_f32) (constant S512x768 .f32 0x00000000#32) (ix2 i g)
      + broadcastTo S512x768 (shapeCast S1x768 b shapeCasts_S1x768_S1x768 : FVec Ideal S1x768 .f32) broadcasts_S1x768_S512x768 (ix2 i g)
    = lin (cat (fun i c => x (ix2 i c)) (fun i c => y (ix2 i c))) (fun g q => w (ix2 q g)) (fun g => b (ix2 0 g)) i g := by
  rw [matmul_gate512, biasRow768]
  simp only [lin, truncf_apply, cat_eq, shapeCast_self]

/-- The gate projection of the features: against the transposed [256, 768] weight, plus the bias row. -/
theorem gh_eq (v0 : Vec Ideal S1x512x256 .f32) (w : Vec Ideal S256x768 .f32) (b : Vec Ideal S1x768 .f32)
    (i : Fin 512) (g : Fin 768) :
    matmul dot_S512x256_S256x768_S512x768_1_0_0_1_n_n none (k0_pay3 v0)
        (truncf .bf16 (shapeCast S256x768 w shapeCasts_S256x768_S256x768) bitsLt_bf16_f32) (constant S512x768 .f32 0x00000000#32) (ix2 i g)
      + broadcastTo S512x768 (shapeCast S1x768 b shapeCasts_S1x768_S1x768 : FVec Ideal S1x768 .f32) broadcasts_S1x768_S512x768 (ix2 i g)
    = lin (fun i k => v0 (ix3 0 i k)) (fun g k => w (ix2 k g)) (fun g => b (ix2 0 g)) i g := by
  rw [matmul_gate256, biasRow768]
  simp only [lin, feat16_apply, truncf_apply, shapeCast_self]

/-! ## The stored value -/

/-- Entry `(u, i, c)` of the value the body stores is the cell of the loaded blocks at `(i, c)`. -/
theorem stored_eq (v0 : Vec Ideal S1x512x256 .f32) (v3 v6 : Vec Ideal S256x256 .f32) (v10 v15 v27 v33 : Vec Ideal S1x256 .f32)
    (v19 v22 : Vec Ideal S1x512x512 .f32) (v39 : Vec Ideal S512x768 .f32) (v42 : Vec Ideal S256x768 .f32)
    (v46 v51 : Vec Ideal S1x768 .f32) (u : Fin 1) (i : Fin 512) (c : Fin 256) :
    k0_pay1 (k0_pay2 v0) (k0_pay3 v0) (k0_pay4 v0 v3 v10 v19 v27) (k0_pay5 v0 v6 v15 v22) v33 v39 v42 v46 v51 (ix3 u i c)
      = cell (fun i j => v19 (ix3 0 i j)) (fun i j => v22 (ix3 0 i j)) (fun i k => v0 (ix3 0 i k))
          (fun g k => v3 (ix2 k g)) (fun g => v10 (ix2 0 g)) (fun g k => v6 (ix2 k g)) (fun g => v15 (ix2 0 g))
          (fun h => v27 (ix2 0 h)) (fun h => v33 (ix2 0 h))
          (fun g q => v39 (ix2 q g)) (fun g => v46 (ix2 0 g)) (fun g k => v42 (ix2 k g)) (fun g => v51 (ix2 0 g)) i c := by
  unfold k0_pay1
  rw [shapeCast_ab_1ab_apply]
  simp only [addf_apply, mulf_apply, subf_apply, logistic, tanh, third0, third1, third2, gi_eq, gh_eq, feat_apply,
    msgIn_eq, msgOut_eq, Ideal.logistic_def, Ideal.tanh_def, cell, gate]

end Cert.GnnCell.Kernel

end
-- ==== Proof.Blocks.lean ====
/-
  From blocks to the array: the kernel's result array is the graph cell of every batch element.

  The grid has one point per batch element. At point `t` the pipeline stages block `t` of the adjacency and of the
  features (blocks [1, 512, 1024] and [1, 512, 256] at block index `(t, 0, 0)`) and, at block index zero, the whole of
  each weight and bias as the host operations before the region left them: the four weights TRANSPOSED and the six
  biases reshaped to one row. So an entry of a staged block is an entry of an argument array: the adjacency's two loads
  read columns `j` and `512 + j` of row `i` of batch element `t`; a transposed weight at `(k, g)` is the weight at
  `(g, k)`; a bias row at `(0, g)` is the bias at `g`. With `KernelCell.stored_eq` the block point `t` writes back is
  block `t` of `G` of the argument arrays, and the 128 blocks cover the result array.
-/
import proofs.«120271_j64244120814024_1_alg».proof.Proof.Gen.KernelIdeal.Value
import proofs.«120271_j64244120814024_1_alg».proof.Proof.KernelCell
import proofs.«120271_j64244120814024_1_alg».proof.Proof.Spec
import Idealize.ShloMosaic.Lib.ValueLayout
import Idealize.ShloMosaic.Lib.StableHlo.Run

set_option maxRecDepth 16384

noncomputable section

namespace Cert.GnnCell.Blocks

open Cert.KernelIdeal Cert.KernelIdeal.Gen Cert.KernelIdeal.Value Idealize.ShloMosaic Idealize.ShloMosaic.TcCoe Idealize.SL.Sem
open Idealize.ShloMosaic.ValueIdx Cert.GnnCell
open Idealize.ShloMosaic.Pipeline (Dat)

variable (m : (ℓ : Loc nD τ sig) → Buf (Elt Ideal) ℓ) (ρ : Dev nD → PrngReg)

/-! ## The block indices over the grid -/

theorem hz3 : (![0, 0, 0] : Fin 3 → Nat) = fun _ => 0 := funext fun a => by fin_cases a <;> rfl
theorem hz2 : (![0, 0] : Fin 2 → Nat) = fun _ => 0 := funext fun a => by fin_cases a <;> rfl

/-- The adjacency, the features and the result move with the grid point along the batch axis. -/
theorem idx_batch : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_12.index t (0 : Fin 3) = t.val ∧ win0_12.index t (1 : Fin 3) = 0 ∧ win0_12.index t (2 : Fin 3) = 0) :=
  (by decide +kernel : ∀ t : Fin grid0.N, _)

/-- Every weight and bias window stays at block index zero. -/
theorem idx_fixed : ∀ t : Fin cfg0.N,
    (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0) :=
  (by decide +kernel : ∀ t : Fin grid0.N, _)

/-- The batch element of grid point `t`. -/
abbrev pt (t : Fin cfg0.N) : Fin 128 := Fin.cast N_0 t

/-! ## The host operations before the region -/

theorem V_WiT (c : Dev nD) : (V m c main_v0 : S256x256.Idx → EReal)
    = transpose S256x256 [1, 0] (m ((c : Thread nD τ).loc main_arg3)) transposes_S256x256_S256x256_1_0 := by
  dsimp only [V, hostOps0]; after_results
theorem V_WoT (c : Dev nD) : (V m c main_v1 : S256x256.Idx → EReal)
    = transpose S256x256 [1, 0] (m ((c : Thread nD τ).loc main_arg5)) transposes_S256x256_S256x256_1_0 := by
  dsimp only [V, hostOps0]; after_results
theorem V_wihT (c : Dev nD) : (V m c main_v2 : S512x768.Idx → EReal)
    = transpose S512x768 [1, 0] (m ((c : Thread nD τ).loc main_arg9)) transposes_S768x512_S512x768_1_0 := by
  dsimp only [V, hostOps0]; after_results
theorem V_whhT (c : Dev nD) : (V m c main_v3 : S256x768.Idx → EReal)
    = transpose S256x768 [1, 0] (m ((c : Thread nD τ).loc main_arg11)) transposes_S768x256_S256x768_1_0 := by
  dsimp only [V, hostOps0]; after_results
theorem V_bi (c : Dev nD) : (V m c main_v4 : S1x256.Idx → EReal)
    = shapeCast S1x256 (m ((c : Thread nD τ).loc main_arg4)) shapeCasts_S256_S1x256 := by
  dsimp only [V, hostOps0]; after_results; rfl
theorem V_bo (c : Dev nD) : (V m c main_v5 : S1x256.Idx → EReal)
    = shapeCast S1x256 (m ((c : Thread nD τ).loc main_arg6)) shapeCasts_S256_S1x256 := by
  dsimp only [V, hostOps0]; after_results; rfl
theorem V_bia (c : Dev nD) : (V m c main_v6 : S1x256.Idx → EReal)
    = shapeCast S1x256 (m ((c : Thread nD τ).loc main_arg7)) shapeCasts_S256_S1x256 := by
  dsimp only [V, hostOps0]; after_results; rfl
theorem V_boa (c : Dev nD) : (V m c main_v7 : S1x256.Idx → EReal)
    = shapeCast S1x256 (m ((c : Thread nD τ).loc main_arg8)) shapeCasts_S256_S1x256 := by
  dsimp only [V, hostOps0]; after_results; rfl
theorem V_bih (c : Dev nD) : (V m c main_v8 : S1x768.Idx → EReal)
    = shapeCast S1x768 (m ((c : Thread nD τ).loc main_arg10)) shapeCasts_S768_S1x768 := by
  dsimp only [V, hostOps0]; after_results; rfl
theorem V_bhh (c : Dev nD) : (V m c main_v9 : S1x768.Idx → EReal)
    = shapeCast S1x768 (m ((c : Thread nD τ).loc main_arg12)) shapeCasts_S768_S1x768 := by
  dsimp only [V, hostOps0]; after_results; rfl

/-! ## The staged blocks, each at its literal type -/

abbrev bA (c : Dev nD) (t : Fin cfg0.N) : Vec Ideal S1x512x1024 .f32 := iblk m c 0 t
abbrev bH (c : Dev nD) (t : Fin cfg0.N) : Vec Ideal S1x512x256 .f32 := iblk m c 1 t
abbrev bWi (c : Dev nD) (t : Fin cfg0.N) : Vec Ideal S256x256 .f32 := iblk m c 2 t
abbrev bbi (c : Dev nD) (t : Fin cfg0.N) : Vec Ideal S1x256 .f32 := iblk m c 3 t
abbrev bWo (c : Dev nD) (t : Fin cfg0.N) : Vec Ideal S256x256 .f32 := iblk m c 4 t
abbrev bbo (c : Dev nD) (t : Fin cfg0.N) : Vec Ideal S1x256 .f32 := iblk m c 5 t
abbrev bbia (c : Dev nD) (t : Fin cfg0.N) : Vec Ideal S1x256 .f32 := iblk m c 6 t
abbrev bboa (c : Dev nD) (t : Fin cfg0.N) : Vec Ideal S1x256 .f32 := iblk m c 7 t
abbrev bwih (c : Dev nD) (t : Fin cfg0.N) : Vec Ideal S512x768 .f32 := iblk m c 8 t
abbrev bbih (c : Dev nD) (t : Fin cfg0.N) : Vec Ideal S1x768 .f32 := iblk m c 9 t
abbrev bwhh (c : Dev nD) (t : Fin cfg0.N) : Vec Ideal S256x768 .f32 := iblk m c 10 t
abbrev bbhh (c : Dev nD) (t : Fin cfg0.N) : Vec Ideal S1x768 .f32 := iblk m c 11 t

/-! ## An entry of a staged block is an entry of an argument array -/

/-- The first load of the adjacency block: columns 0 to 511. -/
theorem aIn_apply (c : Dev nD) (t : Fin cfg0.N) (i j : Fin 512) :
    View.ld (bA m c t) r0_3 (ix3 0 i j) = (m ((c : Thread nD τ).loc main_arg0)) (ix3 (pt t) i (lo j)) := by
  show V m c main_arg0 (((cfg0.win 0).blk t).view.emb (r0_3.emb (ix3 0 i j))) = _
  rw [V_main_arg0]
  obtain ⟨⟨e0, e1, e2⟩, -, -⟩ := idx_batch t
  refine congrArg _ (funext fun a => Fin.ext ?_)
  match a with
  | ⟨0, _⟩ => show win0_0.index t (0 : Fin 3) * 1 + 1 * (0 + 1 * 0) = t.val; omega
  | ⟨1, _⟩ => show win0_0.index t (1 : Fin 3) * 512 + 1 * (0 + 1 * i.val) = i.val; omega
  | ⟨2, _⟩ => show win0_0.index t (2 : Fin 3) * 1024 + 1 * (0 + 1 * j.val) = j.val; omega

/-- The second load of the adjacency block: columns 512 to 1023. -/
theorem aOut_apply (c : Dev nD) (t : Fin cfg0.N) (i j : Fin 512) :
    View.ld (bA m c t) r0_4 (ix3 0 i j) = (m ((c : Thread nD τ).loc main_arg0)) (ix3 (pt t) i (hi j)) := by
  show V m c main_arg0 (((cfg0.win 0).blk t).view.emb (r0_4.emb (ix3 0 i j))) = _
  rw [V_main_arg0]
  obtain ⟨⟨e0, e1, e2⟩, -, -⟩ := idx_batch t
  refine congrArg _ (funext fun a => Fin.ext ?_)
  match a with
  | ⟨0, _⟩ => show win0_0.index t (0 : Fin 3) * 1 + 1 * (0 + 1 * 0) = t.val; omega
  | ⟨1, _⟩ => show win0_0.index t (1 : Fin 3) * 512 + 1 * (0 + 1 * i.val) = i.val; omega
  | ⟨2, _⟩ => show win0_0.index t (2 : Fin 3) * 1024 + 1 * (512 + 1 * j.val) = 512 + j.val; omega

/-- The features block. -/
theorem hid_apply (c : Dev nD) (t : Fin cfg0.N) (i : Fin 512) (k : Fin 256) :
    View.ld (bH m c t) r0_0 (ix3 0 i k) = (m ((c : Thread nD τ).loc main_arg1)) (ix3 (pt t) i k) := by
  rw [View.ld_unit_zero (S := S1x512x256) hz3]
  show V m c main_arg1 (((cfg0.win 1).blk t).view.emb (ix3 0 i k)) = _
  rw [V_main_arg1]
  obtain ⟨-, ⟨e0, e1, e2⟩, -⟩ := idx_batch t
  refine congrArg _ (funext fun a => Fin.ext ?_)
  match a with
  | ⟨0, _⟩ => show win0_1.index t (0 : Fin 3) * 1 + 1 * 0 = t.val; omega
  | ⟨1, _⟩ => show win0_1.index t (1 : Fin 3) * 512 + 1 * i.val = i.val; omega
  | ⟨2, _⟩ => show win0_1.index t (2 : Fin 3) * 256 + 1 * k.val = k.val; omega

/-- The transposed incoming edge weight: entry `(k, g)` is the weight's `(g, k)`. -/
theorem Wi_apply (c : Dev nD) (t : Fin cfg0.N) (k : Fin 256) (g : Fin 256) :
    View.ld (bWi m c t) r0_1 (ix2 k g) = (m ((c : Thread nD τ).loc main_arg3)) (ix2 g k) := by
  rw [View.ld_unit_zero (S := S256x256) hz2]
  show V m c main_v0 (((cfg0.win 2).blk t).view.emb (ix2 k g)) = _
  obtain ⟨e0, e1⟩ := (idx_fixed t).1
  have he : ((cfg0.win 2).blk t).view.emb (ix2 k g) = ix2 k g := funext fun a => Fin.ext (by
    match a with
    | ⟨0, _⟩ => show win0_2.index t (0 : Fin 2) * 256 + 1 * k.val = k.val; omega
    | ⟨1, _⟩ => show win0_2.index t (1 : Fin 2) * 256 + 1 * g.val = g.val; omega)
  rw [he, V_WiT]
  exact transpose_ix2_apply _ _ k g

/-- The transposed outgoing edge weight: entry `(k, g)` is the weight's `(g, k)`. -/
theorem Wo_apply (c : Dev nD) (t : Fin cfg0.N) (k : Fin 256) (g : Fin 256) :
    View.ld (bWo m c t) r0_1 (ix2 k g) = (m ((c : Thread nD τ).loc main_arg5)) (ix2 g k) := by
  rw [View.ld_unit_zero (S := S256x256) hz2]
  show V m c main_v1 (((cfg0.win 4).blk t).view.emb (ix2 k g)) = _
  obtain ⟨e0, e1⟩ := (idx_fixed t).2.2.1
  have he : ((cfg0.win 4).blk t).view.emb (ix2 k g) = ix2 k g := funext fun a => Fin.ext (by
    match a with
    | ⟨0, _⟩ => show win0_4.index t (0 : Fin 2) * 256 + 1 * k.val = k.val; omega
    | ⟨1, _⟩ => show win0_4.index t (1 : Fin 2) * 256 + 1 * g.val = g.val; omega)
  rw [he, V_WoT]
  exact transpose_ix2_apply _ _ k g

/-- The transposed gate weight of the messages: entry `(q, g)` is the weight's `(g, q)`. -/
theorem wih_apply (c : Dev nD) (t : Fin cfg0.N) (q : Fin 512) (g : Fin 768) :
    View.ld (bwih m c t) r0_5 (ix2 q g) = (m ((c : Thread nD τ).loc main_arg9)) (ix2 g q) := by
  rw [View.ld_unit_zero (S := S512x768) hz2]
  show V m c main_v2 (((cfg0.win 8).blk t).view.emb (ix2 q g)) = _
  obtain ⟨e0, e1⟩ := (idx_fixed t).2.2.2.2.2.2.1
  have he : ((cfg0.win 8).blk t).view.emb (ix2 q g) = ix2 q g := funext fun a => Fin.ext (by
    match a with
    | ⟨0, _⟩ => show win0_8.index t (0 : Fin 2) * 512 + 1 * q.val = q.val; omega
    | ⟨1, _⟩ => show win0_8.index t (1 : Fin 2) * 768 + 1 * g.val = g.val; omega)
  rw [he, V_wihT]
  exact transpose_ix2_apply _ _ q g

/-- The transposed gate weight of the features: entry `(k, g)` is the weight's `(g, k)`. -/
theorem whh_apply (c : Dev nD) (t : Fin cfg0.N) (k : Fin 256) (g : Fin 768) :
    View.ld (bwhh m c t) r0_6 (ix2 k g) = (m ((c : Thread nD τ).loc main_arg11)) (ix2 g k) := by
  rw [View.ld_unit_zero (S := S256x768) hz2]
  show V m c main_v3 (((cfg0.win 10).blk t).view.emb (ix2 k g)) = _
  obtain ⟨e0, e1⟩ := (idx_fixed t).2.2.2.2.2.2.2.2.1
  have he : ((cfg0.win 10).blk t).view.emb (ix2 k g) = ix2 k g := funext fun a => Fin.ext (by
    match a with
    | ⟨0, _⟩ => show win0_10.index t (0 : Fin 2) * 256 + 1 * k.val = k.val; omega
    | ⟨1, _⟩ => show win0_10.index t (1 : Fin 2) * 768 + 1 * g.val = g.val; omega)
  rw [he, V_whhT]
  exact transpose_ix2_apply _ _ k g

/-- The incoming edge bias row: entry `(0, g)` is the bias at `g`. -/
theorem bi_apply (c : Dev nD) (t : Fin cfg0.N) (g : Fin 256) :
    View.ld (bbi m c t) r0_2 (ix2 0 g) = (m ((c : Thread nD τ).loc main_arg4)) (ix1 g) := by
  rw [View.ld_unit_zero (S := S1x256) hz2]
  show V m c main_v4 (((cfg0.win 3).blk t).view.emb (ix2 0 g)) = _
  obtain ⟨e0, e1⟩ := (idx_fixed t).2.1
  have he : ((cfg0.win 3).blk t).view.emb (ix2 (0 : Fin 1) g) = ix2 0 g := funext fun a => Fin.ext (by
    match a with
    | ⟨0, _⟩ => show win0_3.index t (0 : Fin 2) * 1 + 1 * 0 = 0; omega
    | ⟨1, _⟩ => show win0_3.index t (1 : Fin 2) * 256 + 1 * g.val = g.val; omega)
  rw [he, V_bi]
  exact shapeCast_a_1a_apply _ _ 0 g

/-- The outgoing edge bias row: entry `(0, g)` is the bias at `g`. -/
theorem bo_apply (c : Dev nD) (t : Fin cfg0.N) (g : Fin 256) :
    View.ld (bbo m c t) r0_2 (ix2 0 g) = (m ((c : Thread nD τ).loc main_arg6)) (ix1 g) := by
  rw [View.ld_unit_zero (S := S1x256) hz2]
  show V m c main_v5 (((cfg0.win 5).blk t).view.emb (ix2 0 g)) = _
  obtain ⟨e0, e1⟩ := (idx_fixed t).2.2.2.1
  have he : ((cfg0.win 5).blk t).view.emb (ix2 (0 : Fin 1) g) = ix2 0 g := funext fun a => Fin.ext (by
    match a with
    | ⟨0, _⟩ => show win0_5.index t (0 : Fin 2) * 1 + 1 * 0 = 0; omega
    | ⟨1, _⟩ => show win0_5.index t (1 : Fin 2) * 256 + 1 * g.val = g.val; omega)
  rw [he, V_bo]
  exact shapeCast_a_1a_apply _ _ 0 g

/-- The incoming message bias row: entry `(0, g)` is the bias at `g`. -/
theorem bia_apply (c : Dev nD) (t : Fin cfg0.N) (g : Fin 256) :
    View.ld (bbia m c t) r0_2 (ix2 0 g) = (m ((c : Thread nD τ).loc main_arg7)) (ix1 g) := by
  rw [View.ld_unit_zero (S := S1x256) hz2]
  show V m c main_v6 (((cfg0.win 6).blk t).view.emb (ix2 0 g)) = _
  obtain ⟨e0, e1⟩ := (idx_fixed t).2.2.2.2.1
  have he : ((cfg0.win 6).blk t).view.emb (ix2 (0 : Fin 1) g) = ix2 0 g := funext fun a => Fin.ext (by
    match a with
    | ⟨0, _⟩ => show win0_6.index t (0 : Fin 2) * 1 + 1 * 0 = 0; omega
    | ⟨1, _⟩ => show win0_6.index t (1 : Fin 2) * 256 + 1 * g.val = g.val; omega)
  rw [he, V_bia]
  exact shapeCast_a_1a_apply _ _ 0 g

/-- The outgoing message bias row: entry `(0, g)` is the bias at `g`. -/
theorem boa_apply (c : Dev nD) (t : Fin cfg0.N) (g : Fin 256) :
    View.ld (bboa m c t) r0_2 (ix2 0 g) = (m ((c : Thread nD τ).loc main_arg8)) (ix1 g) := by
  rw [View.ld_unit_zero (S := S1x256) hz2]
  show V m c main_v7 (((cfg0.win 7).blk t).view.emb (ix2 0 g)) = _
  obtain ⟨e0, e1⟩ := (idx_fixed t).2.2.2.2.2.1
  have he : ((cfg0.win 7).blk t).view.emb (ix2 (0 : Fin 1) g) = ix2 0 g := funext fun a => Fin.ext (by
    match a with
    | ⟨0, _⟩ => show win0_7.index t (0 : Fin 2) * 1 + 1 * 0 = 0; omega
    | ⟨1, _⟩ => show win0_7.index t (1 : Fin 2) * 256 + 1 * g.val = g.val; omega)
  rw [he, V_boa]
  exact shapeCast_a_1a_apply _ _ 0 g

/-- The gate bias row of the messages: entry `(0, g)` is the bias at `g`. -/
theorem bih_apply (c : Dev nD) (t : Fin cfg0.N) (g : Fin 768) :
    View.ld (bbih m c t) r0_7 (ix2 0 g) = (m ((c : Thread nD τ).loc main_arg10)) (ix1 g) := by
  rw [View.ld_unit_zero (S := S1x768) hz2]
  show V m c main_v8 (((cfg0.win 9).blk t).view.emb (ix2 0 g)) = _
  obtain ⟨e0, e1⟩ := (idx_fixed t).2.2.2.2.2.2.2.1
  have he : ((cfg0.win 9).blk t).view.emb (ix2 (0 : Fin 1) g) = ix2 0 g := funext fun a => Fin.ext (by
    match a with
    | ⟨0, _⟩ => show win0_9.index t (0 : Fin 2) * 1 + 1 * 0 = 0; omega
    | ⟨1, _⟩ => show win0_9.index t (1 : Fin 2) * 768 + 1 * g.val = g.val; omega)
  rw [he, V_bih]
  exact shapeCast_a_1a_apply _ _ 0 g

/-- The gate bias row of the features: entry `(0, g)` is the bias at `g`. -/
theorem bhh_apply (c : Dev nD) (t : Fin cfg0.N) (g : Fin 768) :
    View.ld (bbhh m c t) r0_7 (ix2 0 g) = (m ((c : Thread nD τ).loc main_arg12)) (ix1 g) := by
  rw [View.ld_unit_zero (S := S1x768) hz2]
  show V m c main_v9 (((cfg0.win 11).blk t).view.emb (ix2 0 g)) = _
  obtain ⟨e0, e1⟩ := (idx_fixed t).2.2.2.2.2.2.2.2.2
  have he : ((cfg0.win 11).blk t).view.emb (ix2 (0 : Fin 1) g) = ix2 0 g := funext fun a => Fin.ext (by
    match a with
    | ⟨0, _⟩ => show win0_11.index t (0 : Fin 2) * 1 + 1 * 0 = 0; omega
    | ⟨1, _⟩ => show win0_11.index t (1 : Fin 2) * 768 + 1 * g.val = g.val; omega)
  rw [he, V_bhh]
  exact shapeCast_a_1a_apply _ _ 0 g

/-! ## What a point writes back -/

/-- The value the body stores at point `t`, over the named blocks. -/
abbrev stored (c : Dev nD) (t : Fin cfg0.N) : FVec Ideal S1x512x256 .f32 :=
  k0_pay1 (k0_pay2 (View.ld (bH m c t) r0_0)) (k0_pay3 (View.ld (bH m c t) r0_0))
    (k0_pay4 (View.ld (bH m c t) r0_0) (View.ld (bWi m c t) r0_1) (View.ld (bbi m c t) r0_2) (View.ld (bA m c t) r0_3) (View.ld (bbia m c t) r0_2))
    (k0_pay5 (View.ld (bH m c t) r0_0) (View.ld (bWo m c t) r0_1) (View.ld (bbo m c t) r0_2) (View.ld (bA m c t) r0_4))
    (View.ld (bboa m c t) r0_2) (View.ld (bwih m c t) r0_5) (View.ld (bwhh m c t) r0_6) (View.ld (bbih m c t) r0_7) (View.ld (bbhh m c t) r0_7)

/-- The graph step of the argument arrays as launched. -/
abbrev Gm (c : Dev nD) : FVec Ideal S128x512x256 .f32 :=
  G (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

/-- Entry `(u, i, k)` of what point `t` stores is entry `(t, i, k)` of the graph step of the argument arrays. -/
theorem stored_apply (c : Dev nD) (t : Fin cfg0.N) (u : Fin 1) (i : Fin 512) (k : Fin 256) :
    stored m c t (ix3 u i k) = Gm m c (ix3 (pt t) i k) := by
  refine (Kernel.stored_eq (View.ld (bH m c t) r0_0) (View.ld (bWi m c t) r0_1) (View.ld (bWo m c t) r0_1)
    (View.ld (bbi m c t) r0_2) (View.ld (bbo m c t) r0_2) (View.ld (bbia m c t) r0_2) (View.ld (bboa m c t) r0_2)
    (View.ld (bA m c t) r0_3) (View.ld (bA m c t) r0_4) (View.ld (bwih m c t) r0_5) (View.ld (bwhh m c t) r0_6)
    (View.ld (bbih m c t) r0_7) (View.ld (bbhh m c t) r0_7) u i k).trans ?_
  simp only [aIn_apply, aOut_apply, hid_apply, Wi_apply, Wo_apply, wih_apply, whh_apply, bi_apply, bo_apply, bia_apply,
    boa_apply, bih_apply, bhh_apply]
  rfl

/-- WHAT POINT `t` WRITES BACK is block `t` of the graph step of the argument arrays. -/
theorem flushed_eq (c : Dev nD) (t : Fin cfg0.N) :
    (dats m 0 c).flushed 12 t = ((cfg0.win 12).blk t).view.read (Elt Ideal) (Gm m c) := by
  rw [flushed12]
  unfold out0_12
  rw [View.canon_unit_zero hz3]
  funext j
  show stored m c t j = Gm m c (((cfg0.win 12).blk t).view.emb j)
  obtain ⟨-, -, ⟨e0, e1, e2⟩⟩ := idx_batch t
  have hj0 : (j 0).val < 1 := (j 0).isLt
  have he : ((cfg0.win 12).blk t).view.emb j = ix3 (pt t) (j 1) (j 2) := funext fun a => Fin.ext (by
    match a with
    | ⟨0, _⟩ => show win0_12.index t (0 : Fin 3) * 1 + 1 * (j 0).val = t.val; omega
    | ⟨1, _⟩ => show win0_12.index t (1 : Fin 3) * 512 + 1 * (j 1).val = (j 1).val; omega
    | ⟨2, _⟩ => show win0_12.index t (2 : Fin 3) * 256 + 1 * (j 2).val = (j 2).val; omega)
  rw [he]
  refine (congrArg (stored m c t) (eq_ix3 j)).trans ?_
  exact stored_apply m c t (j 0) (j 1) (j 2)

/-! ## The blocks cover the result array -/

/-- An index of the array is in point `t`'s block iff each coordinate is in the block's range on its axis. -/
theorem mem_blk (t : Fin cfg0.N) (i : S128x512x256.Idx) :
    i ∈ ((cfg0.win 12).blk t).view.set ↔ ∀ a : Fin 3, win0_12.index t a * S1x512x256.size a ≤ (i a).val
      ∧ (i a).val < win0_12.index t a * S1x512x256.size a + S1x512x256.size a := by
  show i ∈ ((View.whole main_v10).slice (win0_12.rect t)).set ↔ _
  rw [View.set_slice_whole, Rect.mem_set_unit]
  exact Iff.rfl

/-- Batch element `n` of the array is the block of grid point `n`. -/
theorem cover (i : S128x512x256.Idx) :
    ∃ t : Fin cfg0.N, (cfg0.win 12).flush t = true ∧ i ∈ ((cfg0.win 12).blk t).view.set := by
  have h0 : (i 0).val < 128 := (i 0).isLt
  have h1 : (i 1).val < 512 := (i 1).isLt
  have h2 : (i 2).val < 256 := (i 2).isLt
  obtain ⟨t, ht⟩ : ∃ t : Fin cfg0.N, t.val = (i 0).val := ⟨⟨(i 0).val, by rw [show cfg0.N = 128 from N_0]; exact h0⟩, rfl⟩
  refine ⟨t, flush0_12 t, ?_⟩
  rw [mem_blk]
  obtain ⟨-, -, ⟨e0, e1, e2⟩⟩ := idx_batch t
  intro a
  match a with
  | ⟨0, _⟩ => show win0_12.index t (0 : Fin 3) * 1 ≤ (i 0).val ∧ (i 0).val < win0_12.index t (0 : Fin 3) * 1 + 1; omega
  | ⟨1, _⟩ => show win0_12.index t (1 : Fin 3) * 512 ≤ (i 1).val ∧ (i 1).val < win0_12.index t (1 : Fin 3) * 512 + 512; omega
  | ⟨2, _⟩ => show win0_12.index t (2 : Fin 3) * 256 ≤ (i 2).val ∧ (i 2).val < win0_12.index t (2 : Fin 3) * 256 + 256; omega

/-- THE RESULT ARRAY after the run is the graph step of the argument arrays. -/
theorem final (c : Dev nD) : (dats m 0 c).arrAt 12 cfg0.N = Gm m c :=
  (dats m 0 c).arrAt_eq_of_cover 12 (Gm m c) (fun t _ => flushed_eq m c t) cover

/-- The kernel's run: it terminates with the result array at the graph step of the arguments and the arguments unchanged. -/
theorem run : θ_run defs (onTc (τ := τ) (main (F := Ideal))) ⟨m, fun _ => 0, ρ⟩ fun r => ∀ c : Dev nD,
      r.2.mem ((c : Thread nD τ).loc main_v10) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans (final m c), (h c).2⟩) (Value.run_blocks m ρ)

end Cert.GnnCell.Blocks

end
-- ==== Proof.RefCell.lean ====
/-
  The reference program's result, read entry by entry, is the graph cell of `Spec.lean` on the batch slice.

  The reference computes every stage on whole [128, 512, ·] arrays. Reading a stage at `(n, i, c)` through the
  read-at-an-index lemmas of the reference's run gives the stage of `Cert.GnnCell` for batch element `n`:
  the two edge projections are contractions over the 256 features, the two message products are batched contractions
  over the 512 nodes against the two halves of the adjacency (slices of its last axis at 0 and at 512), the joined
  message block picks its operand by the column, the gate projections contract over 512 and 256, the three thirds
  of the gate axis are slices at 0, 256 and 512, and the logistic function is spelled `1 / (1 + exp (−x))`, which is its
  definition on the extended reals.
-/
import proofs.«120271_j64244120814024_1_alg».proof.Proof.Gen.ReferenceIdeal.Read
import proofs.«120271_j64244120814024_1_alg».proof.Proof.Spec

noncomputable section

namespace Cert.GnnCell.Ref

open Cert.ReferenceIdeal Cert.ReferenceIdeal.Gen Cert.ReferenceIdeal.Read Idealize.ShloMosaic Idealize.ShloMosaic.ValueIdx Cert.GnnCell

/-- Two index functions over a rank-3, rank-2, rank-1 or rank-0 shape agree when their coordinates do. -/
macro "coords3" : tactic => `(tactic| (funext a; apply Fin.ext; match a with | ⟨0, _⟩ => rfl | ⟨1, _⟩ => rfl | ⟨2, _⟩ => rfl))
macro "coords2" : tactic => `(tactic| (funext a; apply Fin.ext; match a with | ⟨0, _⟩ => rfl | ⟨1, _⟩ => rfl))
macro "coords1" : tactic => `(tactic| (funext a; apply Fin.ext; match a with | ⟨0, _⟩ => rfl))

variable (x0 : FVec Ideal S128x512x1024 .f32) (x1 : FVec Ideal S128x512x256 .f32)
  (x3 : FVec Ideal S256x256 .f32) (x4 : FVec Ideal S256 .f32) (x5 : FVec Ideal S256x256 .f32) (x6 x7 x8 : FVec Ideal S256 .f32)
  (x9 : FVec Ideal S768x512 .f32) (x10 : FVec Ideal S768 .f32) (x11 : FVec Ideal S768x256 .f32) (x12 : FVec Ideal S768 .f32)

/-! ## The index maps at an index given by coordinates -/

section Idx
variable (n : Fin 128) (i : Fin 512)

theorem l0 (g k : Fin 256) : lidx_main_v0 (ix3 n i g) k = ix3 n i k := by coords3
theorem r0 (g k : Fin 256) : ridx_main_v0 (ix3 n i g) k = ix2 g k := by coords2
theorem l4 (g k : Fin 256) : lidx_main_v4 (ix3 n i g) k = ix3 n i k := by coords3
theorem r4 (g k : Fin 256) : ridx_main_v4 (ix3 n i g) k = ix2 g k := by coords2
theorem b256 (g : Fin 256) : idx_main_v1 (idx_main_v2 (ix3 n i g)) = ix1 g := by coords1
theorem b256' (g : Fin 256) : idx_main_v5 (idx_main_v6 (ix3 n i g)) = ix1 g := by coords1
theorem b256'' (g : Fin 256) : idx_main_v10 (idx_main_v11 (ix3 n i g)) = ix1 g := by coords1
theorem b256''' (g : Fin 256) : idx_main_v15 (idx_main_v16 (ix3 n i g)) = ix1 g := by coords1
theorem b768 (g : Fin 768) : idx_main_v20 (idx_main_v21 (ix3 n i g)) = ix1 g := by coords1
theorem b768' (g : Fin 768) : idx_main_v24 (idx_main_v25 (ix3 n i g)) = ix1 g := by coords1
theorem l9 (h : Fin 256) (k : Fin 512) : lidx_main_v9 (ix3 n i h) k = ix3 n i k := by coords3
theorem r9 (h : Fin 256) (k : Fin 512) : ridx_main_v9 (ix3 n i h) k = ix3 n k h := by coords3
theorem l14 (h : Fin 256) (k : Fin 512) : lidx_main_v14 (ix3 n i h) k = ix3 n i k := by coords3
theorem r14 (h : Fin 256) (k : Fin 512) : ridx_main_v14 (ix3 n i h) k = ix3 n k h := by coords3
theorem s8 (k : Fin 512) : idx_main_v8 (ix3 n i k) = ix3 n i (lo k) := by coords3
theorem s13 (k : Fin 512) : idx_main_v13 (ix3 n i k) = ix3 n i (hi k) := by coords3
theorem l19 (g : Fin 768) (k : Fin 512) : lidx_main_v19 (ix3 n i g) k = ix3 n i k := by coords3
theorem r19 (g : Fin 768) (k : Fin 512) : ridx_main_v19 (ix3 n i g) k = ix2 g k := by coords2
theorem l23 (g : Fin 768) (k : Fin 256) : lidx_main_v23 (ix3 n i g) k = ix3 n i k := by coords3
theorem r23 (g : Fin 768) (k : Fin 256) : ridx_main_v23 (ix3 n i g) k = ix2 g k := by coords2
theorem s27 (c : Fin 256) : idx_main_v27 (ix3 n i c) = ix3 n i (g0 c) := by coords3
theorem s28 (c : Fin 256) : idx_main_v28 (ix3 n i c) = ix3 n i (g1 c) := by coords3
theorem s29 (c : Fin 256) : idx_main_v29 (ix3 n i c) = ix3 n i (g2 c) := by coords3
theorem s30 (c : Fin 256) : idx_main_v30 (ix3 n i c) = ix3 n i (g0 c) := by coords3
theorem s31 (c : Fin 256) : idx_main_v31 (ix3 n i c) = ix3 n i (g1 c) := by coords3
theorem s32 (c : Fin 256) : idx_main_v32 (ix3 n i c) = ix3 n i (g2 c) := by coords3

end Idx

/-! ## The stages -/

/-- The batch slice's accessors. -/
abbrev hidN (n : Fin 128) : Fin 512 → Fin 256 → EReal := fun i k => x1 (ix3 n i k)

theorem edgeIn_eq (n : Fin 128) (j : Fin 512) (g : Fin 256) :
    val_main_v3 (F := Ideal) x1 x3 x4 (ix3 n j g)
      = edge (hidN x1 n) (fun g k => x3 (ix2 g k)) (fun g => x4 (ix1 g)) j g := by
  rw [val_main_v3_apply, val_main_v0_apply, val_main_v2_apply, val_main_v1_apply]
  simp only [l0, r0, b256, edge, Ideal.addf_def]

theorem edgeOut_eq (n : Fin 128) (j : Fin 512) (g : Fin 256) :
    val_main_v7 (F := Ideal) x1 x5 x6 (ix3 n j g)
      = edge (hidN x1 n) (fun g k => x5 (ix2 g k)) (fun g => x6 (ix1 g)) j g := by
  rw [val_main_v7_apply, val_main_v4_apply, val_main_v6_apply, val_main_v5_apply]
  simp only [l4, r4, b256', edge, Ideal.addf_def]

theorem msgIn_eq (n : Fin 128) (i : Fin 512) (h : Fin 256) :
    val_main_v12 (F := Ideal) x0 x1 x3 x4 x7 (ix3 n i h)
      = msg (fun i j => x0 (ix3 n i (lo j))) (edge (hidN x1 n) (fun g k => x3 (ix2 g k)) (fun g => x4 (ix1 g)))
          (fun h => x7 (ix1 h)) i h := by
  rw [val_main_v12_apply, val_main_v9_apply, val_main_v11_apply, val_main_v10_apply]
  simp only [l9, r9, val_main_v8_apply, s8, edgeIn_eq, b256'', msg, Ideal.addf_def]

theorem msgOut_eq (n : Fin 128) (i : Fin 512) (h : Fin 256) :
    val_main_v17 (F := Ideal) x0 x1 x5 x6 x8 (ix3 n i h)
      = msg (fun i j => x0 (ix3 n i (hi j))) (edge (hidN x1 n) (fun g k => x5 (ix2 g k)) (fun g => x6 (ix1 g)))
          (fun h => x8 (ix1 h)) i h := by
  rw [val_main_v17_apply, val_main_v14_apply, val_main_v16_apply, val_main_v15_apply]
  simp only [l14, r14, val_main_v13_apply, s13, edgeOut_eq, b256''', msg, Ideal.addf_def]

/-- The joined message block: column `q` below 256 reads the incoming messages at `q`, the others the outgoing ones
    at `q − 256`. -/
theorem cat_eq (n : Fin 128) (i : Fin 512) (q : Fin 512) :
    val_main_v18 (F := Ideal) x0 x1 x3 x4 x5 x6 x7 x8 (ix3 n i q)
      = cat (msg (fun i j => x0 (ix3 n i (lo j))) (edge (hidN x1 n) (fun g k => x3 (ix2 g k)) (fun g => x4 (ix1 g))) (fun h => x7 (ix1 h)))
          (msg (fun i j => x0 (ix3 n i (hi j))) (edge (hidN x1 n) (fun g k => x5 (ix2 g k)) (fun g => x6 (ix1 g))) (fun h => x8 (ix1 h)))
          i q := by
  unfold val_main_v18 cat
  by_cases hq : q.val < 256
  · rw [dif_pos hq]
    refine (concatenate_pair_apply_left (t := S128x512x512) (s₁ := S128x512x256) (s₂ := S128x512x256) (2 : Fin 3) _ _
      concatenates_S128x512x256_S128x512x256_S128x512x512_d2 (ix3 n i q) rfl (ix3 n i ⟨q.val, hq⟩) ?_).trans (msgIn_eq x0 x1 x3 x4 x7 n i _)
    intro b
    match b with
    | ⟨0, _⟩ => rfl
    | ⟨1, _⟩ => rfl
    | ⟨2, _⟩ => rfl
  · rw [dif_neg hq]
    refine (concatenate_pair_apply_right (t := S128x512x512) (s₁ := S128x512x256) (s₂ := S128x512x256) (2 : Fin 3) _ _
      concatenates_S128x512x256_S128x512x256_S128x512x512_d2 (ix3 n i q) rfl rfl (ix3 n i ⟨q.val - 256, by omega⟩) ?_ ?_).trans
        (msgOut_eq x0 x1 x5 x6 x8 n i _)
    · intro b hb
      match b, hb with
      | ⟨0, _⟩, _ => rfl
      | ⟨1, _⟩, _ => rfl
      | ⟨2, _⟩, hb => exact absurd rfl hb
    · show (q.val - 256) + 256 = q.val
      omega

theorem gi_eq (n : Fin 128) (i : Fin 512) (g : Fin 768) :
    val_main_v22 (F := Ideal) x0 x1 x3 x4 x5 x6 x7 x8 x9 x10 (ix3 n i g)
      = lin (cat (msg (fun i j => x0 (ix3 n i (lo j))) (edge (hidN x1 n) (fun g k => x3 (ix2 g k)) (fun g => x4 (ix1 g))) (fun h => x7 (ix1 h)))
          (msg (fun i j => x0 (ix3 n i (hi j))) (edge (hidN x1 n) (fun g k => x5 (ix2 g k)) (fun g => x6 (ix1 g))) (fun h => x8 (ix1 h))))
          (fun g q => x9 (ix2 g q)) (fun g => x10 (ix1 g)) i g := by
  rw [val_main_v22_apply, val_main_v19_apply, val_main_v21_apply, val_main_v20_apply]
  simp only [l19, r19, cat_eq, b768, lin, Ideal.addf_def]

theorem gh_eq (n : Fin 128) (i : Fin 512) (g : Fin 768) :
    val_main_v26 (F := Ideal) x1 x11 x12 (ix3 n i g)
      = lin (hidN x1 n) (fun g k => x11 (ix2 g k)) (fun g => x12 (ix1 g)) i g := by
  rw [val_main_v26_apply, val_main_v23_apply, val_main_v25_apply, val_main_v24_apply]
  simp only [l23, r23, b768', lin, Ideal.addf_def]

/-- The reference's result at `(n, i, c)` is the cell of batch element `n` at `(i, c)`. -/
theorem result_eq :
    val_main_v52 (F := Ideal) x0 x1 x3 x4 x5 x6 x7 x8 x9 x10 x11 x12 = G x0 x1 x3 x4 x5 x6 x7 x8 x9 x10 x11 x12 := by
  funext idx
  obtain ⟨n, i, c, rfl⟩ : ∃ (n : Fin 128) (i : Fin 512) (c : Fin 256), idx = ix3 n i c := ⟨idx 0, idx 1, idx 2, eq_ix3 idx⟩
  rw [val_main_v52_apply, val_main_v51_apply, val_main_v46_apply, val_main_v45_apply, val_main_v44_apply, val_main_v43_apply,
    val_main_v42_apply, val_main_v41_apply, val_main_v40_apply, val_main_v28_apply, val_main_v31_apply,
    val_main_v50_apply, val_main_v49_apply, val_main_v48_apply, val_main_v29_apply, val_main_v47_apply,
    val_main_v39_apply, val_main_v38_apply, val_main_v37_apply, val_main_v36_apply, val_main_v35_apply, val_main_v34_apply,
    val_main_v33_apply, val_main_v27_apply, val_main_v30_apply, val_main_v32_apply]
  simp only [s27, s28, s29, s30, s31, s32, gi_eq, gh_eq]
  show _ = cell _ _ _ _ _ _ _ _ _ _ _ _ _ i c
  simp only [cell, gate, val_main_cst, val_main_cst_0, val_main_cst_1, val_main_cst_2, constant_apply, ofBits_one_f32,
    Ideal.addf_def, Ideal.subf_def, Ideal.mulf_def, Ideal.hostDivf_def, Ideal.hostNegf_def, Ideal.negf_def,
    Ideal.hostUnary_exp_def, Ideal.hostUnary_tanh_def, Ideal.logistic]

end Cert.GnnCell.Ref

end
-- ==== Proof.lean ====
/-
  A gated graph cell (one message-passing step with a GRU-style update) as a pipelined kernel over the batch,
  against its array-level definition.

  Per batch element, with 512 nodes of 256 features: edge features `hid · Wᵀ + b` for the incoming and the outgoing
  edges; messages `A_in · e_in + b_iah` and `A_out · e_out + b_oah` with the two halves of the [512, 1024] adjacency
  block; the two message blocks joined to 512 columns; gate projections `[m_in | m_out] · w_ihᵀ + b_ih` and
  `hid · w_hhᵀ + b_hh` of 768 columns; reset and update gates by the logistic function of the first and second thirds,
  the candidate `tanh` of the third third with the reset gate applied; the result `hid + z · (n − hid)`.

  The kernel runs one grid point per batch element on blocks staged by the pipeline, with the weights transposed and
  the biases reshaped to rows by host operations before the region; it narrows the operands of every matrix product
  to sixteen bits, which on the extended reals changes nothing. The reference computes the same stages on the whole
  arrays with batched contractions, and spells the logistic function as `1 / (1 + exp (−x))`, its definition on the
  extended reals. Every sum on both sides is the same finite sum with its factors in the same order, so the two results
  are equal entry by entry with no algebraic law and no use of the finiteness of the inputs:
    `Spec.lean`        the cell over coordinate accessors, and `G`, the step over whole arrays;
    `RefCell.lean`     the reference's result is `G` of its arguments;
    `Dots.lean`, `KernelCell.lean`   the value the kernel body stores is the cell of its loaded blocks;
    `Blocks.lean`      a staged block's entry is an argument array's entry, point `t` writes back block `t` of `G`,
                       the blocks cover the result, so the kernel's result array is `G` of its arguments.
  The idealization rewrote nothing, so the kernel's idealized program is its own text read at the extended reals.
-/
import proofs.«120271_j64244120814024_1_alg».proof.Defs
import proofs.«120271_j64244120814024_1_alg».proof.Proof.Gen.Kernel
import proofs.«120271_j64244120814024_1_alg».proof.Proof.Gen.Kernel.Skeleton
import proofs.«120271_j64244120814024_1_alg».proof.Proof.Gen.Kernel.Launch
import proofs.«120271_j64244120814024_1_alg».proof.Proof.Gen.Kernel.Points
import proofs.«120271_j64244120814024_1_alg».proof.Proof.Gen.Kernel.Frame
import proofs.«120271_j64244120814024_1_alg».proof.Proof.Gen.KernelIdeal
import proofs.«120271_j64244120814024_1_alg».proof.Proof.Gen.KernelIdeal.Skeleton
import proofs.«120271_j64244120814024_1_alg».proof.Proof.Gen.KernelIdeal.Launch
import proofs.«120271_j64244120814024_1_alg».proof.Proof.Gen.KernelIdeal.Points
import proofs.«120271_j64244120814024_1_alg».proof.Proof.Gen.KernelIdeal.Frame
import proofs.«120271_j64244120814024_1_alg».proof.Proof.Gen.ReferenceIdeal
import proofs.«120271_j64244120814024_1_alg».proof.Proof.Gen.Pre_finite_inputs
import proofs.«120271_j64244120814024_1_alg».proof.Proof.Gen.KernelIdeal.Value
import proofs.«120271_j64244120814024_1_alg».proof.Proof.Gen.ReferenceIdeal.Run
import proofs.«120271_j64244120814024_1_alg».proof.Proof.Gen.ReferenceIdeal.Read
import proofs.«120271_j64244120814024_1_alg».proof.Proof.Blocks
import proofs.«120271_j64244120814024_1_alg».proof.Proof.RefCell
import Idealize.ShloMosaic.Adequacy
import Idealize.ShloMosaic.Init

noncomputable section

namespace Cert.Proof

open Idealize.ShloMosaic Idealize.SL.Sem Cert.Kernel

/-- The word-level kernel terminates without a fault and leaves its arguments unchanged. -/
theorem frame_k : Cert.frame_Kernel := fun m ρ _ => Cert.Kernel.Gen.frame m ρ

/-- So does the kernel read at the extended reals. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the graph step `G` of the arguments in their
    result arrays: the kernel by its blocks, the reference by its run read entry by entry. -/
theorem algebraic : Cert.algebraic_KernelIdeal_ReferenceIdeal := by
  intro m ρ m' ρ' _ hagree
  refine ⟨fun c => Cert.GnnCell.Blocks.Gm m c, Cert.GnnCell.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, -, a3, a4, a5, a6, a7, a8, a9, a10, a11, a12⟩ := hagree c
  rw [Cert.ReferenceIdeal.Read.val_main_v52_eq, Cert.GnnCell.Ref.result_eq, a0, a1, a3, a4, a5, a6, a7, a8, a9, a10, a11, a12]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
